-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x2 : Shape := ⟨2, ![8192, 2]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x2 : S_.BroadcastsInDim S8192x2 (![] : Fin 0 → Fin S8192x2.rank)
  reducesTo_S8192x2_S_d0_1 : S8192x2.ReducesTo [0, 1] S_

variable [Facts]

def fn {F : FTy → Type} [FloatOps F] (main_arg0 : FVec F S8192 .f32) (main_arg1 : FVec F S8192x2 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  main_v8
-- ==== Kernel.lean ====
abbrev S8192 : Shape := ⟨1, ![8192]⟩
abbrev S8192x2 : Shape := ⟨2, ![8192, 2]⟩
abbrev S8192x1 : Shape := ⟨2, ![8192, 1]⟩
abbrev S1x8192 : Shape := ⟨2, ![1, 8192]⟩
abbrev S64x128 : Shape := ⟨2, ![64, 128]⟩
abbrev S1024x1 : Shape := ⟨2, ![1024, 1]⟩
abbrev S1x1024 : Shape := ⟨2, ![1, 1024]⟩
abbrev S8x128 : Shape := ⟨2, ![8, 128]⟩
abbrev S1x1 : Shape := ⟨2, ![1, 1]⟩
abbrev S1024x1024 : Shape := ⟨2, ![1024, 1024]⟩
abbrev S1024 : Shape := ⟨1, ![1024]⟩
abbrev S1024x128 : Shape := ⟨2, ![1024, 128]⟩
abbrev S1 : Shape := ⟨1, ![1]⟩
abbrev S_ : Shape := ⟨0, ![]⟩

abbrev nBuf : Space → Nat
  | .hbm => 25
  | .vmem => 16
  | .smem => 0
  | _ => 0

abbrev bufTy : (tb : Table) → Fin (tcTables nBuf tb) → BufTy
  | .hbm, ⟨0, _⟩ => ⟨S8192, .f32⟩
  | .hbm, ⟨1, _⟩ => ⟨S8192x2, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x1, .f32⟩
  | .hbm, ⟨9, _⟩ => ⟨S1x8192, .f32⟩
  | .hbm, ⟨10, _⟩ => ⟨S8192x1, .f32⟩
  | .hbm, ⟨11, _⟩ => ⟨S64x128, .f32⟩
  | .hbm, ⟨12, _⟩ => ⟨S64x128, .i32⟩
  | .hbm, ⟨13, _⟩ => ⟨S_, .f32⟩
  | .hbm, ⟨14, _⟩ => ⟨S_, .f32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S8x128, .f32⟩
  | .local _ .vmem, ⟨11, _⟩ => ⟨S8x128, .f32⟩
  | .local _ .vmem, ⟨12, _⟩ => ⟨S8x128, .i32⟩
  | .local _ .vmem, ⟨13, _⟩ => ⟨S8x128, .i32⟩
  | .local _ .vmem, ⟨14, _⟩ => ⟨S1x1, .f32⟩
  | .local _ .vmem, ⟨15, _⟩ => ⟨S1x1, .i32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9_0 : Ref sig .tc := ⟨.hbm, 11, rfl⟩
abbrev main_v9_1 : Ref sig .tc := ⟨.hbm, 12, rfl⟩
abbrev main_cst : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v56 : BitVec 1 := Scalar.cmpi .eq arg1 c7_i32
  let v57 : BitVec 32 := Scalar.extui v56
  let c0_i32_27 : BitVec 32 := 0#32
  let v58 : BitVec 1 := Scalar.cmpi .ne v57 c0_i32_27
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  natLt_1_32 : 1 < 32
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  bitsLt_bf16_f32 : FTy.bits .bf16 < FTy.bits .f32
  reduces_S1024x128_S1024 : S1024x128.Reduces [1] S1024
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  h_S_ : 0 < S_.numel
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S64x128.size a
  hwx0_5 : ∀ i : grid0.Coords, EltTy.bits .f32 = 32 ∨ (Rect.block (s := S64x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S64x128.size a
  hwx0_6 : ∀ i : grid0.Coords, EltTy.bits .i32 = 32 ∨ (Rect.block (s := S64x128) S8x128.size (cc0_transform_6 i) (hinb0_6 i)).WholeWords (EltTy.packing .i32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v4) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192 : Shape := ⟨1, ![8192]⟩
abbrev S8192x2 : Shape := ⟨2, ![8192, 2]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x2, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .i1⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .i1⟩
  | .hbm, ⟨15, _⟩ => ⟨S8192x8192, .i1⟩
  | .hbm, ⟨16, _⟩ => ⟨S8192x8192, .i1⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .i32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .i32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x1 : S_.BroadcastsInDim S8192x1 (![] : Fin 0 → Fin S8192x1.rank)
  bcast_S_S8192x8192 : S_.BroadcastsInDim S8192x8192 (![] : Fin 0 → Fin S8192x8192.rank)
  natLt_1_32 : 1 < 32
  reducesTo_S8192x8192_S_d0_1 : S8192x8192.ReducesTo [0, 1] S_
  h_S_ : 0 < S_.numel

variable [Facts₀]

class Facts : Prop extends Facts₀ where

variable [Facts]
-- ==== Proof.PairTerms.lean ====
/-
  The pairwise margin ranking loss, as terms over the extended reals.

  For predictions `p`, durations `d` and event flags `e` on 8192 items, a pair (a, b) is ACTIVE when
  `d a < d b` and `e a = 1`; its penalty is the hinge `max (1 - (p a - p b)) 0`. The loss is the sum of the active
  pairs' penalties divided by their number (zero when there are none).

  The tiled computation cuts the 8192 × 8192 pairs into 8 × 8 tiles of 1024 × 1024. Inside a tile the
  activity of a pair is carried as two numbers in {0, 1} that multiply: `bitVal (earlier (d a) (d b))` per pair and
  `bitVal (observed (e a))` per row; the hinge is written `max ((1 - p a) + p b) 0`; a row's pair count is taken as a
  product with a column of ones replicated over 128 lanes, summed over the lanes and scaled by 1/128; a tile's count
  is converted to a 32-bit word and the words are added. This module states both forms; the laws between them are in
  PairLaws.
-/
import Idealize.ShloMosaic.PureOps.Ideal
import Idealize.ShloMosaic.Lib.ValueIdx
import Idealize.ShloMosaic.PureOps.Reduce
import Mathlib.Data.BitVec

noncomputable section

open scoped BigOperators

namespace Cert.PairTerms

open Idealize.ShloMosaic

/-- The float words the two programs spell: 1, 0, 1/128 in binary32 and 1 in bfloat16, read as extended reals. -/
abbrev one32 : EReal := Ideal.ofBits .f32 0x3F800000#32
abbrev zero32 : EReal := Ideal.ofBits .f32 0x00000000#32
abbrev inv128 : EReal := Ideal.ofBits .f32 0x3C000000#32
abbrev one16 : EReal := Ideal.ofBits .bf16 0x3F80#16

/-- A truth bit widened to a 32-bit word and read as a signed number: 0 or 1. -/
def bitVal (b : BitVec 1) : EReal := (((b.setWidth 32).toInt : ℝ) : EReal)

/-- `x < y` on the extended reals, as a bit. -/
def earlier (x y : EReal) : BitVec 1 := Ideal.cmp .olt x y
/-- `e = 1`, as a bit. -/
def observed (e : EReal) : BitVec 1 := Ideal.cmp .oeq e one32

/-- The hinge in the tiled form: `max ((1 - x) + y) 0`. -/
def hinge (x y : EReal) : EReal := max ((one32 - x) + y) zero32

/-! ## One tile: rows `pi di ei`, columns `pj dj` -/

/-- Row `r` of a tile: the sum over the columns of activity-by-duration times hinge, times the row's event number. -/
def rowLoss (pi di ei pj dj : Fin 1024 → EReal) (r : Fin 1024) : EReal :=
  (∑ c : Fin 1024, bitVal (earlier (di r) (dj c)) * hinge (pi r) (pj c)) * bitVal (observed (ei r))

/-- Row `r`'s count of earlier durations, replicated on 128 lanes by a product with ones and summed over the lanes. -/
def rowLanes (di dj : Fin 1024 → EReal) (r : Fin 1024) : EReal :=
  ∑ _l : Fin 128, ∑ k : Fin 1024, bitVal (earlier (di r) (dj k)) * one16

/-- The tile's loss: the sum of its rows'. -/
def tileLoss (pi di ei pj dj : Fin 1024 → EReal) : EReal := ∑ r : Fin 1024, rowLoss pi di ei pj dj r

/-- The tile's count as a float: the rows' lane sums scaled by 1/128, times the row's event number, summed. -/
def tileCount (di ei dj : Fin 1024 → EReal) : EReal :=
  ∑ r : Fin 1024, (rowLanes di dj r * inv128) * bitVal (observed (ei r))

/-! ## The 8 × 8 tiles of the 8192 × 8192 pairs, visited in row-major order: point `n` is tile (n / 8, n % 8) -/

/-- Item `r` of block `n % 8` of the 8192 items. -/
def item (n : ℕ) (r : Fin 1024) : Fin 8192 := ⟨1024 * (n % 8) + r.val, by have := r.isLt; omega⟩

/-- The rows' block of a point: block `n / 8`. -/
def rowsAt (f : Fin 8192 → EReal) (n : ℕ) : Fin 1024 → EReal := fun r => f (item (n / 8) r)
/-- The columns' block of a point: block `n % 8`. -/
def colsAt (f : Fin 8192 → EReal) (n : ℕ) : Fin 1024 → EReal := fun c => f (item n c)

/-- The loss of the tile visited at point `n`. -/
def lossPt (p d e : Fin 8192 → EReal) (n : ℕ) : EReal :=
  tileLoss (rowsAt p n) (rowsAt d n) (rowsAt e n) (colsAt p n) (colsAt d n)
/-- Its count, as a float. -/
def countPt (d e : Fin 8192 → EReal) (n : ℕ) : EReal := tileCount (rowsAt d n) (rowsAt e n) (colsAt d n)

/-- The loss accumulated over a row of tiles after point `n`: from zero, the tiles `8 (n / 8) … n`. -/
def lossAcc (p d e : Fin 8192 → EReal) (n : ℕ) : EReal :=
  zero32 + ∑ s ∈ Finset.range (n % 8 + 1), lossPt p d e (8 * (n / 8) + s)
/-- The count accumulated likewise, in 32-bit words: each tile's float count converted, then added. -/
def countAcc (d e : Fin 8192 → EReal) (n : ℕ) : BitVec 32 :=
  0#32 + ∑ s ∈ Finset.range (n % 8 + 1), Ideal.fptosi 32 (countPt d e (8 * (n / 8) + s))

/-- Row tile `I`'s totals: the accumulations after its last point. -/
def lossRow (p d e : Fin 8192 → EReal) (I : Fin 8) : EReal := lossAcc p d e (8 * I.val + 7)
def countRow (d e : Fin 8192 → EReal) (I : Fin 8) : BitVec 32 := countAcc d e (8 * I.val + 7)

/-- What the tiled computation hands back: a 64 × 128 array whose entry (8 I, 0) is row tile `I`'s total, zero elsewhere. -/
def lossSheet (p d e : Fin 8192 → EReal) : (⟨2, ![64, 128]⟩ : Shape).Idx → EReal := fun x =>
  if (x 0).val % 8 = 0 ∧ (x 1).val = 0 then lossRow p d e ⟨(x 0).val / 8, by have := ValueIdx.idx2_lt0 x; omega⟩ else zero32
def countSheet (d e : Fin 8192 → EReal) : (⟨2, ![64, 128]⟩ : Shape).Idx → BitVec 32 := fun x =>
  if (x 0).val % 8 = 0 ∧ (x 1).val = 0 then countRow d e ⟨(x 0).val / 8, by have := ValueIdx.idx2_lt0 x; omega⟩ else 0#32

/-- The tiled side's two totals: the sheets summed (the float sum from zero; the words by addition from zero). -/
def tiledLoss (p d e : Fin 8192 → EReal) : EReal := zero32 + ∑ x, lossSheet p d e x
def tiledCount (d e : Fin 8192 → EReal) : BitVec 32 := Finset.univ.fold IntOp.addi 0#32 (countSheet d e)

/-- Word addition folded over a set from zero is the set's sum in the ring of 32-bit words. -/
theorem fold_addi_eq_sum {ι : Type} (S : Finset ι) (f : ι → BitVec 32) : S.fold IntOp.addi 0#32 f = ∑ i ∈ S, f i := by
  classical
  induction S using Finset.induction_on with
  | empty => rfl
  | insert a S ha ih =>
    rw [Finset.fold_insert ha, Finset.sum_insert ha, ih]; rfl

/-! ## The plain form -/

/-- A pair's activity bit: earlier duration AND observed event. -/
def active (d e : Fin 8192 → EReal) (a b : Fin 8192) : BitVec 1 := IntOp.andi (earlier (d a) (d b)) (observed (e a))

/-- A pair's contribution: its hinge `max (1 - (p a - p b)) 0` when active, else zero. -/
def pairLoss (p d e : Fin 8192 → EReal) (a b : Fin 8192) : EReal :=
  Scalar.select (active d e a b) (max (one32 - (p a - p b)) zero32) zero32

/-- The plain side's two totals over all pairs. -/
def plainLoss (p d e : Fin 8192 → EReal) : EReal :=
  zero32 + ∑ i : (⟨2, ![8192, 8192]⟩ : Shape).Idx, pairLoss p d e (i 0) (i 1)
def plainCount (d e : Fin 8192 → EReal) : BitVec 32 :=
  Finset.univ.fold IntOp.addi 0#32 (fun i : (⟨2, ![8192, 8192]⟩ : Shape).Idx => (active d e (i 0) (i 1)).setWidth 32)

/-! ## The three vectors, read off the two argument arrays -/

/-- The predictions: the rank-1 argument array by its one coordinate. -/
def predsOf (P : (⟨1, ![8192]⟩ : Shape).Idx → EReal) : Fin 8192 → EReal := fun i => P (ValueIdx.ix1 i)
/-- The durations: column 0 of the 8192 × 2 targets. -/
def dursOf (T : (⟨2, ![8192, 2]⟩ : Shape).Idx → EReal) : Fin 8192 → EReal := fun i => T (ValueIdx.ix2 i 0)
/-- The event flags: column 1 of the targets. -/
def evtsOf (T : (⟨2, ![8192, 2]⟩ : Shape).Idx → EReal) : Fin 8192 → EReal := fun i => T (ValueIdx.ix2 i 1)

/-- A 1024 × 1 block read as a function of its row, a 1 × 1024 block as a function of its column. -/
def colOf (x : (⟨2, ![1024, 1]⟩ : Shape).Idx → EReal) : Fin 1024 → EReal := fun r => x (ValueIdx.ix2 r 0)
def rowOf (x : (⟨2, ![1, 1024]⟩ : Shape).Idx → EReal) : Fin 1024 → EReal := fun k => x (ValueIdx.ix2 0 k)

/-! ## The common ending -/

/-- From a total loss and a pair count: `1 · loss / count` when the count is positive, else zero. -/
def meanLoss (loss : EReal) (count : BitVec 32) : EReal :=
  Scalar.select (IntOp.cmpi .sgt count 0#32) (Ideal.div (one32 * loss) (((count.toInt : ℝ) : EReal))) zero32

end Cert.PairTerms

end
-- ==== Proof.PairLaws.lean ====
/-
  The two laws that join the tiled form of the pairwise ranking loss to the plain form (PairTerms).

  LOSS. With finite predictions, `(1 - p a) + p b = 1 - (p a - p b)`; a number in {0, 1} times a value is that value or
  zero; a sum times a number in {0, 1} is the sum of the products; the 8 × 8 tiles of 1024 × 1024 pairs partition the
  8192 × 8192 pairs; and the 64 × 128 sheet holds one row tile's total at each entry (8 I, 0) and zero elsewhere.

  COUNT. A row's lane sums, scaled by 1/128, are the row's number of earlier durations (128 copies of it, times
  1/128); times the row's event number and summed, a tile's float count is the NATURAL number of its active pairs, at
  most 2^20, which the conversion to a 32-bit word keeps; word addition of naturals' words is the word of their sum; so
  both totals are the word of the number of active pairs.
-/
import proofs.«420691_j89962384982542_3_alg».proof.Proof.PairTerms
import Mathlib.Data.BitVec
import Mathlib.Algebra.BigOperators.Fin
import Mathlib.Data.EReal.Operations

noncomputable section

open scoped BigOperators

namespace Cert.PairLaws

open Idealize.ShloMosaic Cert.PairTerms

/-! ## The constants and the bits -/

private theorem zero32_eq : zero32 = 0 := by simp [Ideal.ofBits, Ideal.ieee]
private theorem one32_eq : one32 = ((1 : ℝ) : EReal) := by
  simp [Ideal.ofBits, Ideal.ieee, -EReal.coe_mul]; norm_num
private theorem inv128_eq : inv128 = ((1 / 128 : ℝ) : EReal) := by
  simp [Ideal.ofBits, Ideal.ieee, -EReal.coe_mul]; norm_num
private theorem one16_eq : one16 = 1 := by
  simp [Ideal.ofBits, Ideal.ieee, -EReal.coe_mul]; norm_num

/-- A bit's number is its value as a natural, 0 or 1. -/
private theorem bitVal_eq (b : BitVec 1) : bitVal b = (((b.toNat : ℕ) : ℝ) : EReal) := by
  rcases BitVec.eq_zero_or_eq_one b with rfl | rfl <;> simp [bitVal]

private theorem toNat_le_one (b : BitVec 1) : b.toNat ≤ 1 := by
  rcases BitVec.eq_zero_or_eq_one b with rfl | rfl <;> simp

/-- The conjunction of two bits multiplies their values. -/
private theorem andi_toNat (x y : BitVec 1) : (IntOp.andi x y).toNat = x.toNat * y.toNat := by
  rcases BitVec.eq_zero_or_eq_one x with rfl | rfl <;> rcases BitVec.eq_zero_or_eq_one y with rfl | rfl <;> rfl

/-- A bit widened to a 32-bit word is the word of its value. -/
private theorem setWidth_eq (b : BitVec 1) : b.setWidth 32 = ((b.toNat : ℕ) : BitVec 32) := by
  rcases BitVec.eq_zero_or_eq_one b with rfl | rfl <;> rfl

/-! ## The partitions -/

/-- The eight blocks of 1024 partition the 8192 items. -/
private theorem sum_items {M : Type*} [AddCommMonoid M] (g : Fin 8192 → M) :
    ∑ a : Fin 8192, g a = ∑ I : Fin 8, ∑ r : Fin 1024, g (item I.val r) := by
  rw [← Equiv.sum_comp (finProdFinEquiv : Fin 8 × Fin 1024 ≃ Fin (8 * 1024)) g, Fintype.sum_prod_type]
  refine Finset.sum_congr rfl fun I _ => Finset.sum_congr rfl fun r _ => ?_
  congr 1
  apply Fin.ext
  have hI := I.isLt
  simp only [item, finProdFinEquiv_apply_val]
  omega

/-- A 64 × 128 sheet holding `G I` at each entry (8 I, 0) and zero elsewhere sums to the sum of the eight values. -/
private theorem sum_sheet {M : Type*} [AddCommMonoid M] (G : ℕ → M) :
    ∑ x : (⟨2, ![64, 128]⟩ : Shape).Idx, (if (x 0).val % 8 = 0 ∧ (x 1).val = 0 then G ((x 0).val / 8) else 0)
      = ∑ I : Fin 8, G I.val := by
  rw [ValueIdx.sum_idx2]
  show ∑ a : Fin 64, ∑ b : Fin 128, (if a.val % 8 = 0 ∧ b.val = 0 then G (a.val / 8) else 0) = _
  rw [← Equiv.sum_comp (finProdFinEquiv : Fin 8 × Fin 8 ≃ Fin (8 * 8)), Fintype.sum_prod_type]
  refine Finset.sum_congr rfl fun I _ => ?_
  have hI := I.isLt
  rw [Finset.sum_eq_single (0 : Fin 8)]
  · rw [Finset.sum_eq_single (0 : Fin 128)]
    · simp only [finProdFinEquiv_apply_val]
      rw [if_pos (by constructor <;> simp)]
      congr 1
      simp
    · intro b _ hb
      rw [if_neg]
      rintro ⟨_, h⟩
      exact hb (Fin.ext h)
    · intro h; exact absurd (Finset.mem_univ _) h
  · intro s _ hs
    refine Finset.sum_eq_zero fun b _ => ?_
    rw [if_neg]
    rintro ⟨h, _⟩
    apply hs
    apply Fin.ext
    have := s.isLt
    simp only [finProdFinEquiv_apply_val] at h
    simp only [Fin.val_zero]
    omega
  · intro h; exact absurd (Finset.mem_univ _) h

/-- The rows' block at point `8 I + s` is block `I`; the columns' block is block `s`. -/
private theorem item_row (I s : ℕ) (hI : I < 8) (hs : s < 8) (r : Fin 1024) : item ((8 * I + s) / 8) r = item I r := by
  apply Fin.ext; simp only [item]; omega
private theorem item_col (I s : ℕ) (hs : s < 8) (c : Fin 1024) : item (8 * I + s) c = item s c := by
  apply Fin.ext; simp only [item]; omega

/-- The 8 × 8 tiles, visited in row-major order, partition the 8192 × 8192 pairs. -/
private theorem sum_tiles {M : Type*} [AddCommMonoid M] (F : Fin 8192 → Fin 8192 → M) :
    ∑ I : Fin 8, ∑ s ∈ Finset.range 8, ∑ r : Fin 1024, ∑ c : Fin 1024,
        F (item ((8 * I.val + s) / 8) r) (item (8 * I.val + s) c)
      = ∑ a : Fin 8192, ∑ b : Fin 8192, F a b := by
  rw [sum_items]
  refine Finset.sum_congr rfl fun I _ => ?_
  rw [← Fin.sum_univ_eq_sum_range (fun s => ∑ r : Fin 1024, ∑ c : Fin 1024,
      F (item ((8 * I.val + s) / 8) r) (item (8 * I.val + s) c)) 8, Finset.sum_comm]
  refine Finset.sum_congr rfl fun r _ => ?_
  rw [sum_items]
  refine Finset.sum_congr rfl fun J _ => Finset.sum_congr rfl fun c _ => ?_
  rw [item_row I.val J.val I.isLt J.isLt, item_col I.val J.val J.isLt]

/-! ## The loss -/

/-- With finite predictions the tiled hinge is the plain one. -/
private theorem hinge_eq (x y : ℝ) :
    hinge (x : EReal) (y : EReal) = max (one32 - ((x : EReal) - (y : EReal))) zero32 := by
  unfold hinge
  rw [one32_eq, ← EReal.coe_sub, ← EReal.coe_add, ← EReal.coe_sub, ← EReal.coe_sub]
  congr 2
  ring

/-- A row of a tile: the two numbers in {0, 1} against the selection on the conjunction of the two bits. -/
private theorem row_sum (p d e : Fin 8192 → EReal) (hp : ∀ i, ∃ x : ℝ, p i = (x : EReal)) (a : Fin 8192)
    (cs : Fin 1024 → Fin 8192) :
    (∑ c : Fin 1024, bitVal (earlier (d a) (d (cs c))) * hinge (p a) (p (cs c))) * bitVal (observed (e a))
      = ∑ c : Fin 1024, pairLoss p d e a (cs c) := by
  obtain ⟨x, hx⟩ := hp a
  rcases BitVec.eq_zero_or_eq_one (observed (e a)) with h | h
  · have h0 : bitVal (observed (e a)) = 0 := by rw [h]; simp [bitVal]
    rw [h0, mul_zero]
    symm
    refine Finset.sum_eq_zero fun c _ => ?_
    unfold pairLoss active
    rw [h]
    have : IntOp.andi (earlier (d a) (d (cs c))) 0#1 = 0#1 := by
      rcases BitVec.eq_zero_or_eq_one (earlier (d a) (d (cs c))) with g | g <;> rw [g] <;> rfl
    rw [this, ValueIdx.select_zero, zero32_eq]
  · have h1 : bitVal (observed (e a)) = 1 := by rw [h]; simp [bitVal]
    rw [h1, mul_one]
    refine Finset.sum_congr rfl fun c _ => ?_
    obtain ⟨y, hy⟩ := hp (cs c)
    unfold pairLoss active
    rw [h]
    rcases BitVec.eq_zero_or_eq_one (earlier (d a) (d (cs c))) with g | g
    · have b0 : bitVal 0#1 = 0 := by simp [bitVal]
      rw [g, b0, zero_mul, show IntOp.andi 0#1 1#1 = 0#1 from rfl, ValueIdx.select_zero, zero32_eq]
    · have b1 : bitVal 1#1 = 1 := by simp [bitVal]
      rw [g, b1, one_mul, show IntOp.andi 1#1 1#1 = 1#1 from rfl, ValueIdx.select_one, hx, hy, hinge_eq]

/-- The loss of the tile at point `n` is the sum of its pairs' contributions. -/
private theorem lossPt_eq (p d e : Fin 8192 → EReal) (hp : ∀ i, ∃ x : ℝ, p i = (x : EReal)) (n : ℕ) :
    lossPt p d e n = ∑ r : Fin 1024, ∑ c : Fin 1024, pairLoss p d e (item (n / 8) r) (item n c) := by
  unfold lossPt tileLoss
  refine Finset.sum_congr rfl fun r _ => ?_
  exact row_sum p d e hp (item (n / 8) r) (fun c => item n c)

/-- A row tile's total is the sum of its eight tiles' losses. -/
private theorem lossRow_eq (p d e : Fin 8192 → EReal) (I : ℕ) :
    lossAcc p d e (8 * I + 7) = ∑ s ∈ Finset.range 8, lossPt p d e (8 * I + s) := by
  unfold lossAcc
  rw [zero32_eq, zero_add, show (8 * I + 7) % 8 + 1 = 8 by omega, show 8 * ((8 * I + 7) / 8) = 8 * I by omega]

/-! ## The count -/

/-- A finite sum of naturals read as extended reals is the natural sum read so. -/
private theorem coe_nat_sum {ι : Type*} (S : Finset ι) (f : ι → ℕ) :
    ∑ i ∈ S, (((f i : ℕ) : ℝ) : EReal) = (((∑ i ∈ S, f i : ℕ) : ℝ) : EReal) := by
  classical
  induction S using Finset.induction_on with
  | empty => simp
  | insert a S ha ih => rw [Finset.sum_insert ha, Finset.sum_insert ha, ih, Nat.cast_add, EReal.coe_add]

/-- A pair's activity as a natural: the product of its two bits' values. -/
private def actNat (d e : Fin 8192 → EReal) (a b : Fin 8192) : ℕ :=
  (earlier (d a) (d b)).toNat * (observed (e a)).toNat

/-- The number of active pairs of the tile at point `n`. -/
private def tileNat (d e : Fin 8192 → EReal) (n : ℕ) : ℕ :=
  ∑ r : Fin 1024, ∑ c : Fin 1024, actNat d e (item (n / 8) r) (item n c)

/-- A row's lane sums are 128 copies of the row's number of earlier durations. -/
private theorem rowLanes_eq (di dj : Fin 1024 → EReal) (r : Fin 1024) :
    rowLanes di dj r = (((128 * ∑ k : Fin 1024, (earlier (di r) (dj k)).toNat : ℕ) : ℝ) : EReal) := by
  unfold rowLanes
  simp only [bitVal_eq, one16_eq, mul_one, coe_nat_sum]
  rw [Finset.sum_const, Finset.card_univ, Fintype.card_fin, smul_eq_mul]

/-- A tile's float count is the natural number of its active pairs. -/
private theorem countPt_eq (d e : Fin 8192 → EReal) (n : ℕ) : countPt d e n = (((tileNat d e n : ℕ) : ℝ) : EReal) := by
  unfold countPt tileCount tileNat
  rw [← coe_nat_sum]
  refine Finset.sum_congr rfl fun r _ => ?_
  rw [rowLanes_eq, inv128_eq, bitVal_eq, ← EReal.coe_mul, ← EReal.coe_mul]
  unfold actNat
  rw [← Finset.sum_mul]
  congr 1
  simp only [rowsAt, colsAt]
  push_cast
  ring

/-- A tile has at most 1024 × 1024 active pairs. -/
private theorem tileNat_lt (d e : Fin 8192 → EReal) (n : ℕ) : tileNat d e n < 2 ^ 31 := by
  have h : tileNat d e n ≤ ∑ _r : Fin 1024, ∑ _c : Fin 1024, 1 := by
    unfold tileNat actNat
    refine Finset.sum_le_sum fun r _ => Finset.sum_le_sum fun c _ => ?_
    calc _ ≤ 1 * 1 := Nat.mul_le_mul (toNat_le_one _) (toNat_le_one _)
      _ = 1 := rfl
  simp only [Finset.sum_const, Finset.card_univ, Fintype.card_fin, smul_eq_mul] at h
  omega

/-- The conversion to a 32-bit word keeps a natural below 2^31. -/
private theorem fptosi_nat (N : ℕ) (hN : N < 2 ^ 31) :
    Ideal.fptosi 32 (((N : ℕ) : ℝ) : EReal) = ((N : ℕ) : BitVec 32) := by
  rw [Ideal.fptosi, Ideal.toIntClamped_coe, if_pos (Nat.cast_nonneg N), Int.floor_natCast]
  have h1 : min ((((2 : ℕ) ^ (32 - 1) : ℕ) : ℤ) - 1) (N : ℤ) = (N : ℤ) := min_eq_right (by push_cast; omega)
  have h2 : max (-(((2 : ℕ) ^ (32 - 1) : ℕ) : ℤ)) (N : ℤ) = (N : ℤ) := max_eq_right (by push_cast; omega)
  rw [h1, h2, BitVec.ofInt_natCast, BitVec.natCast_eq_ofNat]

/-- A row tile's word total is the word of the number of its active pairs. -/
private theorem countRow_eq (d e : Fin 8192 → EReal) (I : ℕ) :
    countAcc d e (8 * I + 7) = ((∑ s ∈ Finset.range 8, tileNat d e (8 * I + s) : ℕ) : BitVec 32) := by
  unfold countAcc
  rw [show (8 * I + 7) % 8 + 1 = 8 by omega, show 8 * ((8 * I + 7) / 8) = 8 * I by omega, Nat.cast_sum,
    show (0#32 : BitVec 32) = 0 from rfl, zero_add]
  refine Finset.sum_congr rfl fun s _ => ?_
  rw [countPt_eq, fptosi_nat _ (tileNat_lt d e _)]

/-- The tiled loss total is the plain one, when the predictions are finite. -/
theorem tiledLoss_eq_plainLoss (p d e : Fin 8192 → EReal) (hp : ∀ i, ∃ x : ℝ, p i = (x : EReal)) :
    tiledLoss p d e = plainLoss p d e := by
  unfold tiledLoss plainLoss
  congr 1
  calc ∑ x, lossSheet p d e x
      = ∑ x : (⟨2, ![64, 128]⟩ : Shape).Idx,
          (if (x 0).val % 8 = 0 ∧ (x 1).val = 0 then lossAcc p d e (8 * ((x 0).val / 8) + 7) else 0) :=
        Finset.sum_congr rfl fun x _ => by simp only [lossSheet, lossRow, zero32_eq]
    _ = ∑ I : Fin 8, lossAcc p d e (8 * I.val + 7) := sum_sheet (fun k => lossAcc p d e (8 * k + 7))
    _ = ∑ I : Fin 8, ∑ s ∈ Finset.range 8, ∑ r : Fin 1024, ∑ c : Fin 1024,
          pairLoss p d e (item ((8 * I.val + s) / 8) r) (item (8 * I.val + s) c) :=
        Finset.sum_congr rfl fun I _ => by
          rw [lossRow_eq]; exact Finset.sum_congr rfl fun s _ => lossPt_eq p d e hp _
    _ = ∑ a : Fin 8192, ∑ b : Fin 8192, pairLoss p d e a b := sum_tiles _
    _ = ∑ i : (⟨2, ![8192, 8192]⟩ : Shape).Idx, pairLoss p d e (i 0) (i 1) :=
        (ValueIdx.sum_idx2 (fun i : (⟨2, ![8192, 8192]⟩ : Shape).Idx => pairLoss p d e (i 0) (i 1))).symm

/-- The tiled count total is the plain one. -/
theorem tiledCount_eq_plainCount (d e : Fin 8192 → EReal) : tiledCount d e = plainCount d e := by
  unfold tiledCount plainCount
  rw [fold_addi_eq_sum, fold_addi_eq_sum]
  calc ∑ x, countSheet d e x
      = ∑ x : (⟨2, ![64, 128]⟩ : Shape).Idx,
          (if (x 0).val % 8 = 0 ∧ (x 1).val = 0 then countAcc d e (8 * ((x 0).val / 8) + 7) else 0) :=
        Finset.sum_congr rfl fun x _ => rfl
    _ = ∑ I : Fin 8, countAcc d e (8 * I.val + 7) := sum_sheet (fun k => countAcc d e (8 * k + 7))
    _ = ∑ I : Fin 8, ((∑ s ∈ Finset.range 8, tileNat d e (8 * I.val + s) : ℕ) : BitVec 32) :=
        Finset.sum_congr rfl fun I _ => countRow_eq d e I.val
    _ = ((∑ I : Fin 8, ∑ s ∈ Finset.range 8, tileNat d e (8 * I.val + s) : ℕ) : BitVec 32) :=
        (Nat.cast_sum _ _).symm
    _ = ((∑ a : Fin 8192, ∑ b : Fin 8192, actNat d e a b : ℕ) : BitVec 32) := by
        rw [← sum_tiles (actNat d e)]; rfl
    _ = ∑ a : Fin 8192, ∑ b : Fin 8192, (active d e a b).setWidth 32 := by
        simp only [Nat.cast_sum]
        refine Finset.sum_congr rfl fun a _ => Finset.sum_congr rfl fun b _ => ?_
        rw [setWidth_eq, active, andi_toNat, actNat]
    _ = ∑ i : (⟨2, ![8192, 8192]⟩ : Shape).Idx, (active d e (i 0) (i 1)).setWidth 32 :=
        (ValueIdx.sum_idx2 (fun i : (⟨2, ![8192, 8192]⟩ : Shape).Idx => (active d e (i 0) (i 1)).setWidth 32)).symm

end Cert.PairLaws

end
-- ==== Proof.FiniteInputs.lean ====
/-
  Finiteness of the predictions, read out of the precondition: "every input's absolute value is below +infinity,
  reduced by AND over all entries, equals one" gives, entry by entry, `|x| < +infinity`, so the entry is a real number.
-/
import proofs.«420691_j89962384982542_3_alg».proof.Pre_finite_inputs
import proofs.«420691_j89962384982542_3_alg».proof.Proof.PairTerms
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Cert.PairTerms

/-- The rank-0 result shape has exactly one index. -/
private instance : Subsingleton Cert.Pre_finite_inputs.S_.Idx := ⟨fun a b => funext fun d => d.elim0⟩

/-- Under the precondition every prediction is a real number. -/
theorem preds_finite [Cert.Pre_finite_inputs.Facts] (P : FVec Ideal Cert.Pre_finite_inputs.S8192 .f32)
    (T : FVec Ideal Cert.Pre_finite_inputs.S8192x2 .f32)
    (h : Cert.Pre_finite_inputs.fn (F := Ideal) P T = fun _ => 1#1) (i : Fin 8192) :
    ∃ x : ℝ, predsOf P i = (x : EReal) := by
  -- the claim at the single index of the rank-0 result, with the printed chain in view
  have h0 := congrFun h ValueIdx.ix0
  dsimp only [Cert.Pre_finite_inputs.fn] at h0
  -- the conjunction's first half: the AND over all entries of |P| < +infinity is one, so each entry's comparison is one
  have h1 := (IntOp.andi_eq_one.1 h0).1
  have h2 := Host.reduce_andi_all _ _ _ _ _ h1 (ValueIdx.ix1 i)
  -- read at the entry: the comparison of max x (-x) with the value of the word 0x7F800000
  have h3 : Ideal.cmp .olt (max (P (ValueIdx.ix1 i)) (-(P (ValueIdx.ix1 i)))) (Ideal.ofBits .f32 0x7F800000#32) = 1#1 := h2
  -- that word is +infinity
  have htop : Ideal.ofBits .f32 0x7F800000#32 = (⊤ : EReal) := by
    simp [Ideal.ofBits, Ideal.ieee]
  rw [htop] at h3
  show ∃ x : ℝ, P (ValueIdx.ix1 i) = (x : EReal)
  generalize P (ValueIdx.ix1 i) = y at h3
  have h4 : max y (-y) < ⊤ := by
    by_contra hn
    simp [Ideal.cmp, hn] at h3
  clear h3
  -- neither infinity has max y (-y) below +infinity; a real is its own witness
  induction y using EReal.rec with
  | bot => simp at h4
  | coe x => exact ⟨x, rfl⟩
  | top => simp at h4

end Cert.FiniteInputs

end
-- ==== Proof.InputTiles.lean ====
/-
  The five input blocks of a tile, read as blocks of the argument vectors: at grid point `t` (tile (t / 8, t % 8)) the
  three column blocks hold rows `1024 (t / 8) …` of the predictions, the durations and the event flags, and the two row
  blocks hold columns `1024 (t % 8) …` of the predictions and the durations. The arrays the blocks are cut from are the
  host's slices of the targets, reshaped, and broadcasts of the vectors into a column or a row.
-/
import proofs.«420691_j89962384982542_3_alg».proof.Proof.Gen.KernelIdeal.Frame.Runs
import proofs.«420691_j89962384982542_3_alg».proof.Proof.PairTerms
import Idealize.ShloMosaic.Lib.ValueIdx
import Idealize.ShloMosaic.Lib.Pipeline.Value
import Idealize.ShloMosaic.Lib.StableHlo.Run

noncomputable section

namespace Cert.InputTiles

open Idealize.ShloMosaic Idealize.ShloMosaic.TcCoe Idealize.ShloMosaic.ValueIdx
open Idealize.SL Idealize.SL.Sem
open Cert.KernelIdeal Cert.KernelIdeal.Gen Cert.PairTerms

variable (m : (ℓ : Loc nD τ sig) → Buf (Elt Ideal) ℓ)

/-- The two argument arrays on core `c`, at their literal types. -/
abbrev predsArg (c : Dev nD) : FVec Ideal S8192 .f32 := m ((c : Thread nD τ).loc main_arg0)
abbrev targetsArg (c : Dev nD) : FVec Ideal S8192x2 .f32 := m ((c : Thread nD τ).loc main_arg1)

/-- The three vectors on core `c`. -/
abbrev pv (c : Dev nD) : Fin 8192 → EReal := predsOf (predsArg m c)
abbrev dv (c : Dev nD) : Fin 8192 → EReal := dursOf (targetsArg m c)
abbrev ev (c : Dev nD) : Fin 8192 → EReal := evtsOf (targetsArg m c)

/-- The five input blocks at point `t`, at their literal types. -/
abbrev predCol (c : Dev nD) (t : Fin cfg0.N) : Vec Ideal S1024x1 .f32 := iblk m c 0 t
abbrev predRow (c : Dev nD) (t : Fin cfg0.N) : Vec Ideal S1x1024 .f32 := iblk m c 1 t
abbrev durCol (c : Dev nD) (t : Fin cfg0.N) : Vec Ideal S1024x1 .f32 := iblk m c 2 t
abbrev durRow (c : Dev nD) (t : Fin cfg0.N) : Vec Ideal S1x1024 .f32 := iblk m c 3 t
abbrev evtCol (c : Dev nD) (t : Fin cfg0.N) : Vec Ideal S1024x1 .f32 := iblk m c 4 t

/-! ## The grid point's number is below 64 -/

private theorem t_lt (t : Fin cfg0.N) : t.val < 64 := lt_of_lt_of_eq t.isLt (show cfg0.N = 64 from N_0)

/-! ## The two columns of the targets as vectors: a slice of width one, reshaped -/

/-- Column 0 of the targets, sliced off and reshaped to a vector. -/
private abbrev durVec (T : FVec Ideal S8192x2 .f32) : FVec Ideal S8192 .f32 :=
  shapeCast _ (extractStridedSlice S8192x1 ![0, 0] T slices_S8192x2_S8192x1_0_0) shapeCasts_S8192x1_S8192
/-- Column 1 likewise. -/
private abbrev evtVec (T : FVec Ideal S8192x2 .f32) : FVec Ideal S8192 .f32 :=
  shapeCast _ (extractStridedSlice S8192x1 ![0, 1] T slices_S8192x2_S8192x1_0_1) shapeCasts_S8192x1_S8192

/-- Entry `i` of the first vector is entry (i, 0) of the targets: the reshape keeps the row-major position, the slice
    shifts by its offsets (0, 0). -/
private theorem durVec_apply (T : FVec Ideal S8192x2 .f32) (i : Fin 8192) : durVec T (ix1 i) = T (ix2 i 0) := by
  refine (shapeCast_apply _ shapeCasts_S8192x1_S8192 (ix1 i) (ix2 i 0) ?_).trans ?_
  · rewrite [Shape.rowMajor_val_two, Shape.rowMajor_val_one]
    show i.val * 1 + 0 = i.val
    omega
  · exact extractStridedSlice_apply ![0, 0] T slices_S8192x2_S8192x1_0_0 (ix2 i 0) (ix2 i 0) (fun a => match a with
      | ⟨0, _⟩ => by show i.val = 0 + i.val; omega
      | ⟨1, _⟩ => by show 0 = 0 + 0; rfl)

/-- Entry `i` of the second vector is entry (i, 1) of the targets: the slice's offsets are (0, 1). -/
private theorem evtVec_apply (T : FVec Ideal S8192x2 .f32) (i : Fin 8192) : evtVec T (ix1 i) = T (ix2 i 1) := by
  refine (shapeCast_apply _ shapeCasts_S8192x1_S8192 (ix1 i) (ix2 i 0) ?_).trans ?_
  · rewrite [Shape.rowMajor_val_two, Shape.rowMajor_val_one]
    show i.val * 1 + 0 = i.val
    omega
  · exact extractStridedSlice_apply ![0, 1] T slices_S8192x2_S8192x1_0_1 (ix2 i 0) (ix2 i 1) (fun a => match a with
      | ⟨0, _⟩ => by show i.val = 0 + i.val; omega
      | ⟨1, _⟩ => by show 1 = 1 + 0; rfl)

/-! ## The five arrays the blocks are cut from, as terms over the arguments

Each is the broadcast of a vector into an 8192 × 1 column (along axis 0) or a 1 × 8192 row (along axis 1): of the
predictions themselves, or of a column of the targets. -/

private theorem V_v4 (c : Dev nD) : (V m c main_v4 : S8192x1.Idx → EReal)
    = broadcastInDim S8192x1 ![0] bcast_S8192_S8192x1_0 (predsArg m c) := by
  show StableHlo.after hostOps0 (fun b => m (c, b)) (Proc.devRef .tc main_v4) = _
  after_results

private theorem V_v5 (c : Dev nD) : (V m c main_v5 : S1x8192.Idx → EReal)
    = broadcastInDim S1x8192 ![1] bcast_S8192_S1x8192_1 (predsArg m c) := by
  show StableHlo.after hostOps0 (fun b => m (c, b)) (Proc.devRef .tc main_v5) = _
  after_results

private theorem V_v6 (c : Dev nD) : (V m c main_v6 : S8192x1.Idx → EReal)
    = broadcastInDim S8192x1 ![0] bcast_S8192_S8192x1_0 (durVec (targetsArg m c)) := by
  show StableHlo.after hostOps0 (fun b => m (c, b)) (Proc.devRef .tc main_v6) = _
  after_results
  rfl

private theorem V_v7 (c : Dev nD) : (V m c main_v7 : S1x8192.Idx → EReal)
    = broadcastInDim S1x8192 ![1] bcast_S8192_S1x8192_1 (durVec (targetsArg m c)) := by
  show StableHlo.after hostOps0 (fun b => m (c, b)) (Proc.devRef .tc main_v7) = _
  after_results
  rfl

private theorem V_v8 (c : Dev nD) : (V m c main_v8 : S8192x1.Idx → EReal)
    = broadcastInDim S8192x1 ![0] bcast_S8192_S8192x1_0 (evtVec (targetsArg m c)) := by
  show StableHlo.after hostOps0 (fun b => m (c, b)) (Proc.devRef .tc main_v8) = _
  after_results
  rfl

/-- A column broadcast read at (i, 0), a row broadcast read at (0, i): the vector's entry `i`. -/
private theorem bcastCol_apply (v : FVec Ideal S8192 .f32) (i : Fin 8192) :
    (broadcastInDim S8192x1 ![0] bcast_S8192_S8192x1_0 v : S8192x1.Idx → EReal) (ix2 i 0) = v (ix1 i) :=
  broadcastInDim_apply _ bcast_S8192_S8192x1_0 v (ix2 i 0) (ix1 i) (fun a => match a with
    | ⟨0, _⟩ => by
      show i.val = if (8192 : Nat) = 1 then 0 else i.val
      rw [if_neg (by decide)])
private theorem bcastRow_apply (v : FVec Ideal S8192 .f32) (i : Fin 8192) :
    (broadcastInDim S1x8192 ![1] bcast_S8192_S1x8192_1 v : S1x8192.Idx → EReal) (ix2 0 i) = v (ix1 i) :=
  broadcastInDim_apply _ bcast_S8192_S1x8192_1 v (ix2 0 i) (ix1 i) (fun a => match a with
    | ⟨0, _⟩ => by
      show i.val = if (8192 : Nat) = 1 then 0 else i.val
      rw [if_neg (by decide)])

/-! ## The block indices over the grid

Point `t` is tile (t / 8, t % 8): the column windows (0, 2, 4) stand at block row `t / 8`, the row windows (1, 3) at
block column `t % 8`; the other index is zero. -/

private theorem idx0 : ∀ t : Fin cfg0.N, win0_0.index t (0 : Fin 2) = t.val / 8 ∧ win0_0.index t (1 : Fin 2) = 0 :=
  (by decide +kernel : ∀ t : Fin grid0.N, _)
private theorem idx1 : ∀ t : Fin cfg0.N, win0_1.index t (0 : Fin 2) = 0 ∧ win0_1.index t (1 : Fin 2) = t.val % 8 :=
  (by decide +kernel : ∀ t : Fin grid0.N, _)
private theorem idx2 : ∀ t : Fin cfg0.N, win0_2.index t (0 : Fin 2) = t.val / 8 ∧ win0_2.index t (1 : Fin 2) = 0 :=
  (by decide +kernel : ∀ t : Fin grid0.N, _)
private theorem idx3 : ∀ t : Fin cfg0.N, win0_3.index t (0 : Fin 2) = 0 ∧ win0_3.index t (1 : Fin 2) = t.val % 8 :=
  (by decide +kernel : ∀ t : Fin grid0.N, _)
private theorem idx4 : ∀ t : Fin cfg0.N, win0_4.index t (0 : Fin 2) = t.val / 8 ∧ win0_4.index t (1 : Fin 2) = 0 :=
  (by decide +kernel : ∀ t : Fin grid0.N, _)

/-! ## A block's entry in its array

Entry `x` of the block at `t` sits in the array, on each axis, at the block index times the block's extent plus `x`'s
coordinate: for a column block at (1024 (t / 8) + x₀, x₁), for a row block at (x₀, 1024 (t % 8) + x₁). -/

private theorem predCol_apply (c : Dev nD) (t : Fin cfg0.N) (x : S1024x1.Idx) (k : S8192x1.Idx)
    (hk0 : (k 0).val = 1024 * (t.val / 8) + (x 0).val) (hk1 : (k 1).val = (x 1).val) :
    predCol m c t x = (V m c main_v4 : S8192x1.Idx → EReal) k := by
  obtain ⟨e0, e1⟩ := idx0 t
  show V m c main_v4 (((cfg0.win 0).blk t).view.emb x) = _
  refine congrArg _ (funext fun a => Fin.ext ?_)
  match a with
  | ⟨0, _⟩ => show win0_0.index t (0 : Fin 2) * 1024 + 1 * (x 0).val = (k 0).val; rw [e0, hk0]; omega
  | ⟨1, _⟩ => show win0_0.index t (1 : Fin 2) * 1 + 1 * (x 1).val = (k 1).val; rw [e1, hk1]; omega

private theorem predRow_apply (c : Dev nD) (t : Fin cfg0.N) (x : S1x1024.Idx) (k : S1x8192.Idx)
    (hk0 : (k 0).val = (x 0).val) (hk1 : (k 1).val = 1024 * (t.val % 8) + (x 1).val) :
    predRow m c t x = (V m c main_v5 : S1x8192.Idx → EReal) k := by
  obtain ⟨e0, e1⟩ := idx1 t
  show V m c main_v5 (((cfg0.win 1).blk t).view.emb x) = _
  refine congrArg _ (funext fun a => Fin.ext ?_)
  match a with
  | ⟨0, _⟩ => show win0_1.index t (0 : Fin 2) * 1 + 1 * (x 0).val = (k 0).val; rw [e0, hk0]; omega
  | ⟨1, _⟩ => show win0_1.index t (1 : Fin 2) * 1024 + 1 * (x 1).val = (k 1).val; rw [e1, hk1]; omega

private theorem durCol_apply (c : Dev nD) (t : Fin cfg0.N) (x : S1024x1.Idx) (k : S8192x1.Idx)
    (hk0 : (k 0).val = 1024 * (t.val / 8) + (x 0).val) (hk1 : (k 1).val = (x 1).val) :
    durCol m c t x = (V m c main_v6 : S8192x1.Idx → EReal) k := by
  obtain ⟨e0, e1⟩ := idx2 t
  show V m c main_v6 (((cfg0.win 2).blk t).view.emb x) = _
  refine congrArg _ (funext fun a => Fin.ext ?_)
  match a with
  | ⟨0, _⟩ => show win0_2.index t (0 : Fin 2) * 1024 + 1 * (x 0).val = (k 0).val; rw [e0, hk0]; omega
  | ⟨1, _⟩ => show win0_2.index t (1 : Fin 2) * 1 + 1 * (x 1).val = (k 1).val; rw [e1, hk1]; omega

private theorem durRow_apply (c : Dev nD) (t : Fin cfg0.N) (x : S1x1024.Idx) (k : S1x8192.Idx)
    (hk0 : (k 0).val = (x 0).val) (hk1 : (k 1).val = 1024 * (t.val % 8) + (x 1).val) :
    durRow m c t x = (V m c main_v7 : S1x8192.Idx → EReal) k := by
  obtain ⟨e0, e1⟩ := idx3 t
  show V m c main_v7 (((cfg0.win 3).blk t).view.emb x) = _
  refine congrArg _ (funext fun a => Fin.ext ?_)
  match a with
  | ⟨0, _⟩ => show win0_3.index t (0 : Fin 2) * 1 + 1 * (x 0).val = (k 0).val; rw [e0, hk0]; omega
  | ⟨1, _⟩ => show win0_3.index t (1 : Fin 2) * 1024 + 1 * (x 1).val = (k 1).val; rw [e1, hk1]; omega

private theorem evtCol_apply (c : Dev nD) (t : Fin cfg0.N) (x : S1024x1.Idx) (k : S8192x1.Idx)
    (hk0 : (k 0).val = 1024 * (t.val / 8) + (x 0).val) (hk1 : (k 1).val = (x 1).val) :
    evtCol m c t x = (V m c main_v8 : S8192x1.Idx → EReal) k := by
  obtain ⟨e0, e1⟩ := idx4 t
  show V m c main_v8 (((cfg0.win 4).blk t).view.emb x) = _
  refine congrArg _ (funext fun a => Fin.ext ?_)
  match a with
  | ⟨0, _⟩ => show win0_4.index t (0 : Fin 2) * 1024 + 1 * (x 0).val = (k 0).val; rw [e0, hk0]; omega
  | ⟨1, _⟩ => show win0_4.index t (1 : Fin 2) * 1 + 1 * (x 1).val = (k 1).val; rw [e1, hk1]; omega

/-- Row `r` of block row `t / 8` is item `1024 ((t / 8) % 8) + r`, and `(t / 8) % 8 = t / 8` below 64. -/
private theorem item_row (t : Fin cfg0.N) (r : Fin 1024) : (item (t.val / 8) r).val = 1024 * (t.val / 8) + r.val := by
  have ht := t_lt t
  show 1024 * ((t.val / 8) % 8) + r.val = 1024 * (t.val / 8) + r.val
  omega

/-! ## The five blocks -/

theorem predCol_eq (c : Dev nD) (t : Fin cfg0.N) : colOf (predCol m c t) = rowsAt (pv m c) t.val := by
  funext r
  show predCol m c t (ix2 r 0) = predsArg m c (ix1 (item (t.val / 8) r))
  rw [predCol_apply m c t (ix2 r 0) (ix2 (item (t.val / 8) r) 0) (item_row t r) rfl, V_v4]
  exact bcastCol_apply _ _
theorem predRow_eq (c : Dev nD) (t : Fin cfg0.N) : rowOf (predRow m c t) = colsAt (pv m c) t.val := by
  funext r
  show predRow m c t (ix2 0 r) = predsArg m c (ix1 (item t.val r))
  rw [predRow_apply m c t (ix2 0 r) (ix2 0 (item t.val r)) rfl rfl, V_v5]
  exact bcastRow_apply _ _
theorem durCol_eq (c : Dev nD) (t : Fin cfg0.N) : colOf (durCol m c t) = rowsAt (dv m c) t.val := by
  funext r
  show durCol m c t (ix2 r 0) = targetsArg m c (ix2 (item (t.val / 8) r) 0)
  rw [durCol_apply m c t (ix2 r 0) (ix2 (item (t.val / 8) r) 0) (item_row t r) rfl, V_v6]
  exact (bcastCol_apply _ _).trans (durVec_apply _ _)
theorem durRow_eq (c : Dev nD) (t : Fin cfg0.N) : rowOf (durRow m c t) = colsAt (dv m c) t.val := by
  funext r
  show durRow m c t (ix2 0 r) = targetsArg m c (ix2 (item t.val r) 0)
  rw [durRow_apply m c t (ix2 0 r) (ix2 0 (item t.val r)) rfl rfl, V_v7]
  exact (bcastRow_apply _ _).trans (durVec_apply _ _)
theorem evtCol_eq (c : Dev nD) (t : Fin cfg0.N) : colOf (evtCol m c t) = rowsAt (ev m c) t.val := by
  funext r
  show evtCol m c t (ix2 r 0) = targetsArg m c (ix2 (item (t.val / 8) r) 1)
  rw [evtCol_apply m c t (ix2 r 0) (ix2 (item (t.val / 8) r) 0) (item_row t r) rfl, V_v8]
  exact (bcastCol_apply _ _).trans (evtVec_apply _ _)

end Cert.InputTiles

end
-- ==== Proof.BodyValues.lean ====
/-
  The body's arithmetic at the extended reals, read at an index: each pure value the tile's body stores is one of the
  terms of PairTerms — a row's masked hinge sum, a row's lane-replicated count, the event number, the two
  accumulator steps, and the one-hot blocks the last tile of a row writes out.
-/
import proofs.«420691_j89962384982542_3_alg».proof.Proof.Gen.KernelIdeal.Skeleton
import proofs.«420691_j89962384982542_3_alg».proof.Proof.PairTerms
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.BodyValues

open Idealize.ShloMosaic Idealize.ShloMosaic.ValueIdx Cert.KernelIdeal Cert.KernelIdeal.Gen Cert.PairTerms

/-! ## Indices and layout steps -/

/-- A 1 × 1 index is (0, 0). -/
private theorem idx11 (j : S1x1.Idx) : j = ix2 0 0 := by
  funext c
  match c with
  | ⟨0, _⟩ => exact Fin.ext (by show (j 0).val = 0; have := idx2_lt0 j; omega)
  | ⟨1, _⟩ => exact Fin.ext (by show (j 1).val = 0; have := idx2_lt1 j; omega)

/-- The source index of a sum along axis 1 of an a × b array at row r and position k is (r, k). -/
private theorem lift_axis1 {a b : Nat} (h : (⟨2, ![a, b]⟩ : Shape).Reduces [1] ⟨1, ![a]⟩) (r : Fin a) (k : Fin b) :
    h.lift (ix1 r) k = ix2 r k := by
  funext c; match c with | ⟨0, _⟩ => rfl | ⟨1, _⟩ => rfl

/-- The source index of a sum along axis 0 of an a × 1 array at position k is (k, u), u the one coordinate of the result. -/
private theorem lift_axis0 {a : Nat} (h : (⟨2, ![a, 1]⟩ : Shape).Reduces [0] ⟨1, ![1]⟩) (u : Fin 1) (k : Fin a) :
    h.lift (ix1 u) k = ix2 k u := by
  funext c; match c with | ⟨0, _⟩ => rfl | ⟨1, _⟩ => rfl

/-- A 1 × 1 array broadcast to a × b reads its one entry everywhere. -/
private theorem broadcastTo_11_ab_apply {α : Type} {a b : ℕ} (v : (⟨2, ![1, 1]⟩ : Shape).Idx → α)
    (h : (⟨2, ![1, 1]⟩ : Shape).Broadcasts ⟨2, ![a, b]⟩) (x : (⟨2, ![a, b]⟩ : Shape).Idx) :
    broadcastTo ⟨2, ![a, b]⟩ v h x = v (ix2 0 0) := by
  refine broadcastTo_apply v h x (ix2 (0 : Fin 1) (0 : Fin 1)) fun ax => ?_
  match ax with
  | ⟨0, _⟩ => rfl
  | ⟨1, _⟩ => rfl

/-- An a × 1 column broadcast to a × b reads, at (p, c), the column at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A length-a vector cast to an a × 1 column reads, at (r, u), the vector at r. -/
private theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## Words -/

/-- A word below 2³² compared with zero: the bit 1 exactly when the number is 0. -/
private theorem cmpi_eq_zero (n : Nat) (hn : n < 2 ^ 32) :
    IntOp.cmpi .eq (BitVec.ofNat 32 n) 0#32 = if n = 0 then 1#1 else 0#1 := by
  by_cases h : n = 0
  · subst h; rfl
  · rw [if_neg h]
    have hne : (BitVec.ofNat 32 n == 0#32) = false := by
      rw [beq_eq_false_iff_ne]
      intro e
      have e' := congrArg BitVec.toNat e
      rw [BitVec.toNat_ofNat, Nat.mod_eq_of_lt hn] at e'
      exact h e'
    show BitVec.ofBool (BitVec.ofNat 32 n == 0#32) = 0#1
    rw [hne]; rfl

/-- The one-hot bit: 1 exactly at (0, 0). -/
private theorem pay3_apply (x : S8x128.Idx) :
    k0_pay3 x = if (x 0).val = 0 ∧ (x 1).val = 0 then 1#1 else 0#1 := by
  unfold k0_pay3
  dsimp only
  show IntOp.andi (IntOp.cmpi .eq (iota .tc S8x128 32 [0] _ x) 0#32) (IntOp.cmpi .eq (iota .tc S8x128 32 [1] _ x) 0#32) = _
  rw [iota_single_apply, iota_single_apply, cmpi_eq_zero _ (by have := idx2_lt0 x; omega),
    cmpi_eq_zero _ (by have := idx2_lt1 x; omega)]
  by_cases h0 : (x 0).val = 0 <;> by_cases h1 : (x 1).val = 0 <;> simp [h0, h1, IntOp.andi]

/-! ## The product with the column of ones -/

private abbrev D := dot_S1024x1024_S1024x128_S1024x128_1_0_0_1_n_n

/-- The product's left index at output (r, l) and contraction position k: row r … -/
private theorem lhs_0 (j : S1024x128.Idx) (k : dot_S1024x1024_S1024x128_S1024x128_1_0_0_1_n_n.contr.Idx) :
    (dot_S1024x1024_S1024x128_S1024x128_1_0_0_1_n_n.lhsIdx j k 0 : ℕ) = j 0 := by
  simp [DotDims.lhsIdx, dot_S1024x1024_S1024x128_S1024x128_1_0_0_1_n_n]; rfl
/-- … and column k; -/
private theorem lhs_1 (j : S1024x128.Idx) (k : dot_S1024x1024_S1024x128_S1024x128_1_0_0_1_n_n.contr.Idx) :
    (dot_S1024x1024_S1024x128_S1024x128_1_0_0_1_n_n.lhsIdx j k 1 : ℕ) = k ⟨0, by decide⟩ := by
  simp [DotDims.lhsIdx, dot_S1024x1024_S1024x128_S1024x128_1_0_0_1_n_n]; rfl
/-- its right index: row k … -/
private theorem rhs_0 (j : S1024x128.Idx) (k : dot_S1024x1024_S1024x128_S1024x128_1_0_0_1_n_n.contr.Idx) :
    (dot_S1024x1024_S1024x128_S1024x128_1_0_0_1_n_n.rhsIdx j k 0 : ℕ) = k ⟨0, by decide⟩ := by
  simp [DotDims.rhsIdx, dot_S1024x1024_S1024x128_S1024x128_1_0_0_1_n_n]; rfl
/-- … and column l. -/
private theorem rhs_1 (j : S1024x128.Idx) (k : dot_S1024x1024_S1024x128_S1024x128_1_0_0_1_n_n.contr.Idx) :
    (dot_S1024x1024_S1024x128_S1024x128_1_0_0_1_n_n.rhsIdx j k 1 : ℕ) = j 1 := by
  simp [DotDims.rhsIdx, dot_S1024x1024_S1024x128_S1024x128_1_0_0_1_n_n]; rfl

private theorem lhsIdx_eq (r : Fin 1024) (l : Fin 128) (κ : Fin 1024) :
    D.lhsIdx (ix2 r l) ((contrEquiv1 D 1024 rfl rfl).symm κ) = ix2 r κ :=
  Shape.idx_ext₂ (lhs_0 _ _) ((lhs_1 _ _).trans (contrEquiv1_symm_val D 1024 rfl rfl κ))
private theorem rhsIdx_eq (r : Fin 1024) (l : Fin 128) (κ : Fin 1024) :
    D.rhsIdx (ix2 r l) ((contrEquiv1 D 1024 rfl rfl).symm κ) = ix2 κ l :=
  Shape.idx_ext₂ ((rhs_0 _ _).trans (contrEquiv1_symm_val D 1024 rfl rfl κ)) (rhs_1 _ _)

/-- The product into zero, at (r, l): the sum over the row of A's entries times B's column l. -/
private theorem matmul_apply_rl (A : FVec Ideal S1024x1024 .bf16) (B : FVec Ideal S1024x128 .bf16) (r : Fin 1024) (l : Fin 128) :
    matmul (F := Ideal) D none A B (constant S1024x128 .f32 0x00000000#32) (ix2 r l)
      = ∑ κ : Fin 1024, A (ix2 r κ) * B (ix2 κ l) := by
  refine (Ideal.matmul_constant_zero_apply D none A B (ix2 r l)).trans ?_
  rw [← Equiv.sum_comp (contrEquiv1 D 1024 rfl rfl).symm]
  exact Finset.sum_congr rfl fun κ _ => by rw [lhsIdx_eq, rhsIdx_eq]

/-! ## The payloads -/

/-- The pair's activity number by duration, at (r, c): 1 where row r's duration is earlier than column c's. -/
private theorem pay9_apply (x2 : Vec Ideal S1024x1 .f32) (x3 : Vec Ideal S1x1024 .f32) (r c : Fin 1024) :
    k0_pay9 (F := Ideal) x2 x3 (ix2 r c) = bitVal (earlier (colOf x2 r) (rowOf x3 c)) := by
  unfold k0_pay9
  rw [shapeCast_self, shapeCast_self, sitofp_apply, extui_apply, cmpf_apply, broadcastTo_a1_ab_apply,
    broadcastTo_1b_ab_apply]
  rfl

/-- A row's event number: 1 where the event flag equals one, else 0. -/
theorem pay8_apply (x4 : Vec Ideal S1024x1 .f32) (r : Fin 1024) :
    k0_pay8 (F := Ideal) x4 (ix2 r 0) = bitVal (observed (colOf x4 r)) := by
  unfold k0_pay8
  rw [shapeCast_self]
  rfl

/-- A row's masked hinge sum times its event number. -/
theorem pay10_apply (x0 : Vec Ideal S1024x1 .f32) (x1 : Vec Ideal S1x1024 .f32) (x2 : Vec Ideal S1024x1 .f32)
    (x3 : Vec Ideal S1x1024 .f32) (x4 : Vec Ideal S1024x1 .f32) (r : Fin 1024) :
    k0_pay10 (F := Ideal) x0 x1 x2 x3 x4 (ix2 r 0) = rowLoss (colOf x0) (colOf x2) (colOf x4) (rowOf x1) (rowOf x3) r := by
  unfold k0_pay10
  dsimp only
  rw [mulf_apply, pay8_apply]
  unfold rowLoss
  refine congrArg (· * bitVal (observed (colOf x4 r))) ?_
  refine (shapeCast_a_a1_apply _ _ r 0).trans ?_
  refine (Ideal.multiReduction_add_single (φ := .f32) _ _ Facts₀.reduces_S1024x1024_S1024 _ _ (ix1 r)).trans ?_
  refine Finset.sum_congr rfl fun (k : Fin 1024) _ => ?_
  rw [lift_axis1, mulf_apply, pay9_apply, maximumf_apply, addf_apply, broadcastTo_a1_ab_apply,
    broadcastTo_1b_ab_apply, shapeCast_self, shapeCast_self]
  rfl

/-- A row's count of earlier durations through the product with ones: replicated on 128 lanes and summed. -/
theorem pay11_apply (x2 : Vec Ideal S1024x1 .f32) (x3 : Vec Ideal S1x1024 .f32) (r : Fin 1024) :
    k0_pay11 (F := Ideal) x2 x3 (ix2 r 0) = rowLanes (colOf x2) (rowOf x3) r := by
  unfold k0_pay11
  unfold rowLanes
  refine (shapeCast_a_a1_apply _ _ r 0).trans ?_
  refine (Ideal.multiReduction_add_single (φ := .f32) _ _ Facts₀.reduces_S1024x128_S1024 _ _ (ix1 r)).trans ?_
  refine Finset.sum_congr rfl fun (l : Fin 128) _ => ?_
  rw [lift_axis1]
  refine (matmul_apply_rl _ _ r l).trans ?_
  refine Finset.sum_congr rfl fun κ _ => ?_
  rw [truncf_apply, pay9_apply]
  rfl

/-- The loss accumulator's step: what it held plus the sum of the rows. -/
theorem pay1_eq (v32 : FVec Ideal S1024x1 .f32) (v45 : Vec Ideal S1x1 .f32) :
    k0_pay1 (F := Ideal) v32 v45 = fun _ => v45 (ix2 0 0) + ∑ r : Fin 1024, v32 (ix2 r 0) := by
  funext j
  obtain rfl := idx11 j
  unfold k0_pay1
  dsimp only
  rw [shapeCast_self, addf_apply]
  refine congrArg (v45 (ix2 0 0) + ·) ?_
  refine (shapeCast_a_1a_apply _ _ 0 0).trans ?_
  refine (Ideal.multiReduction_add_single (φ := .f32) v32 _ Facts₀.reduces_S1024x1_S1 _ _ (ix1 0)).trans ?_
  exact Finset.sum_congr rfl fun k _ => congrArg v32 (lift_axis0 _ 0 k)

/-- The count accumulator's step: what it held plus the tile's float count converted to a word. -/
theorem pay2_eq (v16 v37 : FVec Ideal S1024x1 .f32) (v50 : Vec Ideal S1x1 .i32) :
    k0_pay2 (F := Ideal) v16 v37 v50
      = fun _ => v50 (ix2 0 0) + Ideal.fptosi 32 (∑ r : Fin 1024, (v37 (ix2 r 0) * inv128) * v16 (ix2 r 0)) := by
  funext j
  obtain rfl := idx11 j
  unfold k0_pay2
  dsimp only
  rw [shapeCast_self]
  refine congrArg (fun t => v50 (ix2 0 0) + Ideal.fptosi 32 t) ?_
  refine (shapeCast_a_1a_apply _ _ 0 0).trans ?_
  refine (Ideal.multiReduction_add_single (φ := .f32) _ _ Facts₀.reduces_S1024x1_S1 _ _ (ix1 0)).trans ?_
  exact Finset.sum_congr rfl fun (k : Fin 1024) _ => by rw [lift_axis0]; rfl

/-- The accumulators' resets. -/
theorem pay6_eq : k0_pay6 (F := Ideal) = fun _ => zero32 := by
  unfold k0_pay6
  exact shapeCast_self _ _
theorem pay7_eq : k0_pay7 = fun _ => 0#32 := by
  unfold k0_pay7
  exact shapeCast_self _ _

/-- The one-hot blocks: the accumulator at entry (0, 0), zero elsewhere. -/
theorem pay4_apply (v66 : Vec Ideal S1x1 .f32) (x : S8x128.Idx) :
    k0_pay4 (F := Ideal) v66 x = if (x 0).val = 0 ∧ (x 1).val = 0 then v66 (ix2 0 0) else zero32 := by
  unfold k0_pay4
  dsimp only
  rw [select_apply, pay3_apply, shapeCast_self]
  by_cases h : (x 0).val = 0 ∧ (x 1).val = 0
  · rw [if_pos h, if_pos h, select_one]
    exact broadcastTo_11_ab_apply v66 _ x
  · rw [if_neg h, if_neg h, select_zero]; rfl
theorem pay5_apply (v72 : Vec Ideal S1x1 .i32) (x : S8x128.Idx) :
    k0_pay5 (F := Ideal) v72 x = if (x 0).val = 0 ∧ (x 1).val = 0 then v72 (ix2 0 0) else 0#32 := by
  unfold k0_pay5
  dsimp only
  rw [select_apply, pay3_apply, shapeCast_self]
  by_cases h : (x 0).val = 0 ∧ (x 1).val = 0
  · rw [if_pos h, if_pos h, select_one]
    exact broadcastTo_11_ab_apply v72 _ x
  · rw [if_neg h, if_neg h, select_zero]; rfl

end Cert.BodyValues

end
-- ==== Proof.ScratchSteps.lean ====
/-
  What each control case of the tile's body leaves in the two accumulators and, at a row's last tile, in the two
  output blocks, as the body's own pure terms: the first tile of a row steps from the reset values, every later tile
  from what the tile before left, and the last tile writes the one-hot blocks of the stepped accumulators.
-/
import proofs.«420691_j89962384982542_3_alg».proof.Proof.Gen.KernelIdeal.Frame
import Idealize.ShloMosaic.Lib.Pipeline.Value

set_option maxRecDepth 16384

noncomputable section

namespace Cert.ScratchSteps

open Idealize.ShloMosaic Idealize.ShloMosaic.TcCoe Idealize.ShloMosaic.Tactic
open Idealize.SL Idealize.SL.Sem
open Cert.KernelIdeal Cert.KernelIdeal.Gen

variable {F : FTy → Type} [FloatOps F]

/-- The zero offsets of a rank-two block, spelt as a literal pair, are the constant-zero offsets. -/
private theorem hz : (![0, 0] : Fin 2 → Nat) = fun _ => 0 :=
  funext fun a => match a with
    | ⟨0, _⟩ => rfl
    | ⟨1, _⟩ => rfl

/-- First tile of a row: the loss accumulator is reset, then stepped. -/
theorem lossAcc_first (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S1x1 .f32) (harg9 : arg9.IsWhole) (arg10 : Memref sig .tc .vmem S1x1 .i32) (harg10 : arg10.IsWhole) (hc0 : cond0_0 i) (hc1 : ¬cond0_1 i)
    (x0 : Vec F S1024x1 .f32) (x1 : Vec F S1x1024 .f32) (x2 : Vec F S1024x1 .f32) (x3 : Vec F S1x1024 .f32) (x4 : Vec F S1024x1 .f32) :
    sout0_A_0 c i arg2 harg2 arg3 harg3 arg4 harg4 arg5 harg5 arg6 harg6 arg7 harg7 arg8 harg8 arg9 harg9 arg10 harg10 hc0 hc1 x0 x1 x2 x3 x4 = k0_pay1 (k0_pay10 x0 x1 x2 x3 x4) (k0_pay6 (F := F)) := by
  -- two covering pieces, the later (the step) over the earlier (the reset); the step's previous value is the reset read back
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread, harg9.read_unread, harg10.read_unread, View.ld_unit_zero (S := S1x1) hz, View.ld_unit_zero (S := S1024x1) hz, View.ld_unit_zero (S := S1x1024) hz, View.ld_unit_zero (S := S8x128) hz]

/-- First tile of a row: the count accumulator is reset, then stepped. -/
theorem countAcc_first (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S1x1 .f32) (harg9 : arg9.IsWhole) (arg10 : Memref sig .tc .vmem S1x1 .i32) (harg10 : arg10.IsWhole) (hc0 : cond0_0 i) (hc1 : ¬cond0_1 i)
    (x0 : Vec F S1024x1 .f32) (x1 : Vec F S1x1024 .f32) (x2 : Vec F S1024x1 .f32) (x3 : Vec F S1x1024 .f32) (x4 : Vec F S1024x1 .f32) :
    sout0_A_1 c i arg2 harg2 arg3 harg3 arg4 harg4 arg5 harg5 arg6 harg6 arg7 harg7 arg8 harg8 arg9 harg9 arg10 harg10 hc0 hc1 x0 x1 x2 x3 x4 = k0_pay2 (k0_pay8 x4) (k0_pay11 x2 x3) k0_pay7 := by
  -- two covering pieces, the later (the step) over the earlier (the reset); the step's previous value is the reset read back
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread, harg9.read_unread, harg10.read_unread, View.ld_unit_zero (S := S1x1) hz, View.ld_unit_zero (S := S1024x1) hz, View.ld_unit_zero (S := S1x1024) hz, View.ld_unit_zero (S := S8x128) hz]

/-- A middle tile: the loss accumulator stepped from what the tile before left. -/
theorem lossAcc_middle (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S1x1 .f32) (harg9 : arg9.IsWhole) (arg10 : Memref sig .tc .vmem S1x1 .i32) (harg10 : arg10.IsWhole) (hc0 : ¬cond0_0 i) (hc1 : ¬cond0_1 i)
    (x0 : Vec F S1024x1 .f32) (x1 : Vec F S1x1024 .f32) (x2 : Vec F S1024x1 .f32) (x3 : Vec F S1x1024 .f32) (x4 : Vec F S1024x1 .f32) (xs0 : Vec F S1x1 .f32) (xs1 : Vec F S1x1 .i32) :
    sout0_B_0 c i arg2 harg2 arg3 harg3 arg4 harg4 arg5 harg5 arg6 harg6 arg7 harg7 arg8 harg8 arg9 harg9 arg10 harg10 hc0 hc1 x0 x1 x2 x3 x4 xs0 xs1 = k0_pay1 (k0_pay10 x0 x1 x2 x3 x4) xs0 := by
  -- one covering piece: the step of the incoming contents, every load reading a whole block
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x1) hz, View.ld_unit_zero (S := S1024x1) hz, View.ld_unit_zero (S := S1x1024) hz, View.ld_unit_zero (S := S8x128) hz]

/-- A middle tile: the count accumulator stepped likewise. -/
theorem countAcc_middle (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S1x1 .f32) (harg9 : arg9.IsWhole) (arg10 : Memref sig .tc .vmem S1x1 .i32) (harg10 : arg10.IsWhole) (hc0 : ¬cond0_0 i) (hc1 : ¬cond0_1 i)
    (x0 : Vec F S1024x1 .f32) (x1 : Vec F S1x1024 .f32) (x2 : Vec F S1024x1 .f32) (x3 : Vec F S1x1024 .f32) (x4 : Vec F S1024x1 .f32) (xs0 : Vec F S1x1 .f32) (xs1 : Vec F S1x1 .i32) :
    sout0_B_1 c i arg2 harg2 arg3 harg3 arg4 harg4 arg5 harg5 arg6 harg6 arg7 harg7 arg8 harg8 arg9 harg9 arg10 harg10 hc0 hc1 x0 x1 x2 x3 x4 xs0 xs1 = k0_pay2 (k0_pay8 x4) (k0_pay11 x2 x3) xs1 := by
  -- one covering piece: the step of the incoming contents, every load reading a whole block
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x1) hz, View.ld_unit_zero (S := S1024x1) hz, View.ld_unit_zero (S := S1x1024) hz, View.ld_unit_zero (S := S8x128) hz]

/-- Last tile of a row: the loss accumulator stepped as in the middle. -/
theorem lossAcc_last (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S1x1 .f32) (harg9 : arg9.IsWhole) (arg10 : Memref sig .tc .vmem S1x1 .i32) (harg10 : arg10.IsWhole) (hc0 : ¬cond0_0 i) (hc1 : cond0_1 i)
    (x0 : Vec F S1024x1 .f32) (x1 : Vec F S1x1024 .f32) (x2 : Vec F S1024x1 .f32) (x3 : Vec F S1x1024 .f32) (x4 : Vec F S1024x1 .f32) (xs0 : Vec F S1x1 .f32) (xs1 : Vec F S1x1 .i32) :
    sout0_C_0 c i arg2 harg2 arg3 harg3 arg4 harg4 arg5 harg5 arg6 harg6 arg7 harg7 arg8 harg8 arg9 harg9 arg10 harg10 hc0 hc1 x0 x1 x2 x3 x4 xs0 xs1 = k0_pay1 (k0_pay10 x0 x1 x2 x3 x4) xs0 := by
  -- one covering piece, as at a middle tile
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x1) hz, View.ld_unit_zero (S := S1024x1) hz, View.ld_unit_zero (S := S1x1024) hz, View.ld_unit_zero (S := S8x128) hz]

/-- Last tile of a row: the count accumulator stepped as in the middle. -/
theorem countAcc_last (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S1x1 .f32) (harg9 : arg9.IsWhole) (arg10 : Memref sig .tc .vmem S1x1 .i32) (harg10 : arg10.IsWhole) (hc0 : ¬cond0_0 i) (hc1 : cond0_1 i)
    (x0 : Vec F S1024x1 .f32) (x1 : Vec F S1x1024 .f32) (x2 : Vec F S1024x1 .f32) (x3 : Vec F S1x1024 .f32) (x4 : Vec F S1024x1 .f32) (xs0 : Vec F S1x1 .f32) (xs1 : Vec F S1x1 .i32) :
    sout0_C_1 c i arg2 harg2 arg3 harg3 arg4 harg4 arg5 harg5 arg6 harg6 arg7 harg7 arg8 harg8 arg9 harg9 arg10 harg10 hc0 hc1 x0 x1 x2 x3 x4 xs0 xs1 = k0_pay2 (k0_pay8 x4) (k0_pay11 x2 x3) xs1 := by
  -- one covering piece, as at a middle tile
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x1) hz, View.ld_unit_zero (S := S1024x1) hz, View.ld_unit_zero (S := S1x1024) hz, View.ld_unit_zero (S := S8x128) hz]

/-- Last tile of a row: the loss block is the one-hot block of the stepped accumulator. -/
theorem lossBlock_last (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S1x1 .f32) (harg9 : arg9.IsWhole) (arg10 : Memref sig .tc .vmem S1x1 .i32) (harg10 : arg10.IsWhole) (hc0 : ¬cond0_0 i) (hc1 : cond0_1 i)
    (x0 : Vec F S1024x1 .f32) (x1 : Vec F S1x1024 .f32) (x2 : Vec F S1024x1 .f32) (x3 : Vec F S1x1024 .f32) (x4 : Vec F S1024x1 .f32) (xs0 : Vec F S1x1 .f32) (xs1 : Vec F S1x1 .i32) :
    out0_C_5 c i arg2 harg2 arg3 harg3 arg4 harg4 arg5 harg5 arg6 harg6 arg7 harg7 arg8 harg8 arg9 harg9 arg10 harg10 hc0 hc1 x0 x1 x2 x3 x4 xs0 xs1 = k0_pay4 (k0_pay1 (k0_pay10 x0 x1 x2 x3 x4) xs0) := by
  -- one covering piece: the one-hot block of the accumulator read back after its step was stored
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, View.ld_unit_zero (S := S1x1) hz, View.ld_unit_zero (S := S1024x1) hz, View.ld_unit_zero (S := S1x1024) hz, View.ld_unit_zero (S := S8x128) hz]

/-- Last tile of a row: the count block is the one-hot block of the stepped accumulator. -/
theorem countBlock_last (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .i32) (harg8 : arg8.IsWhole) (arg9 : Memref sig .tc .vmem S1x1 .f32) (harg9 : arg9.IsWhole) (arg10 : Memref sig .tc .vmem S1x1 .i32) (harg10 : arg10.IsWhole) (hc0 : ¬cond0_0 i) (hc1 : cond0_1 i)
    (x0 : Vec F S1024x1 .f32) (x1 : Vec F S1x1024 .f32) (x2 : Vec F S1024x1 .f32) (x3 : Vec F S1x1024 .f32) (x4 : Vec F S1024x1 .f32) (xs0 : Vec F S1x1 .f32) (xs1 : Vec F S1x1 .i32) :
    out0_C_6 c i arg2 harg2 arg3 harg3 arg4 harg4 arg5 harg5 arg6 harg6 arg7 harg7 arg8 harg8 arg9 harg9 arg10 harg10 hc0 hc1 x0 x1 x2 x3 x4 xs0 xs1 = k0_pay5 (F := F) (k0_pay2 (k0_pay8 x4) (k0_pay11 x2 x3) xs1) := by
  -- one covering piece: the one-hot block of the accumulator read back after its step was stored
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, harg8.read_unread, harg9.read_unread, harg10.read_unread, View.ld_unit_zero (S := S1x1) hz, View.ld_unit_zero (S := S1024x1) hz, View.ld_unit_zero (S := S1x1024) hz, View.ld_unit_zero (S := S8x128) hz]

end Cert.ScratchSteps

end
-- ==== Proof.Accumulated.lean ====
/-
  The accumulators point by point, and the two output arrays after the run.

  By induction on the grid point: after point `n` the loss accumulator holds `lossAcc … n` and the count accumulator
  `countAcc … n` (PairTerms) — the first tile of a row resets and steps, every later tile steps from what the tile
  before left. At a row's last tile the body writes the one-hot blocks of the accumulators; those are the only points
  whose blocks are written back, their blocks tile the 64 × 128 arrays, so the arrays end as the two sheets.
-/
import proofs.«420691_j89962384982542_3_alg».proof.Proof.Gen.KernelIdeal.Frame
import proofs.«420691_j89962384982542_3_alg».proof.Proof.PairTerms
import proofs.«420691_j89962384982542_3_alg».proof.Proof.BodyValues
import proofs.«420691_j89962384982542_3_alg».proof.Proof.ScratchSteps
import proofs.«420691_j89962384982542_3_alg».proof.Proof.InputTiles
import Idealize.ShloMosaic.Lib.Pipeline.Value

set_option maxRecDepth 16384

noncomputable section

open scoped BigOperators

namespace Cert.Accumulated

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.PairTerms Cert.InputTiles

/-! ## The accumulations, one tile at a time -/

/-- At the first tile of a row the accumulated loss is zero plus that tile's loss. -/
theorem lossAcc_first (p d e : Fin 8192 → EReal) (n : ℕ) (h : n % 8 = 0) :
    lossAcc p d e n = zero32 + lossPt p d e n := by
  have e0 : 8 * (n / 8) + 0 = n := by omega
  unfold lossAcc
  rw [h, Finset.sum_range_one, e0]

/-- At a later tile it is what the tile before accumulated plus this tile's loss. -/
theorem lossAcc_step (p d e : Fin 8192 → EReal) (n : ℕ) (h : ¬n % 8 = 0) :
    lossAcc p d e n = lossAcc p d e (n - 1) + lossPt p d e n := by
  have e1 : (n - 1) % 8 + 1 = n % 8 := by omega
  have e2 : (n - 1) / 8 = n / 8 := by omega
  have e3 : 8 * (n / 8) + n % 8 = n := by omega
  show zero32 + ∑ s ∈ Finset.range (n % 8 + 1), lossPt p d e (8 * (n / 8) + s)
    = (zero32 + ∑ s ∈ Finset.range ((n - 1) % 8 + 1), lossPt p d e (8 * ((n - 1) / 8) + s)) + lossPt p d e n
  rw [e1, e2, Finset.sum_range_succ, e3, add_assoc]

/-- The same two steps for the count, in 32-bit words. -/
theorem countAcc_first (d e : Fin 8192 → EReal) (n : ℕ) (h : n % 8 = 0) :
    countAcc d e n = 0#32 + Ideal.fptosi 32 (countPt d e n) := by
  have e0 : 8 * (n / 8) + 0 = n := by omega
  unfold countAcc
  rw [h, Finset.sum_range_one, e0]

theorem countAcc_step (d e : Fin 8192 → EReal) (n : ℕ) (h : ¬n % 8 = 0) :
    countAcc d e n = countAcc d e (n - 1) + Ideal.fptosi 32 (countPt d e n) := by
  have e1 : (n - 1) % 8 + 1 = n % 8 := by omega
  have e2 : (n - 1) / 8 = n / 8 := by omega
  have e3 : 8 * (n / 8) + n % 8 = n := by omega
  show 0#32 + ∑ s ∈ Finset.range (n % 8 + 1), Ideal.fptosi 32 (countPt d e (8 * (n / 8) + s))
    = (0#32 + ∑ s ∈ Finset.range ((n - 1) % 8 + 1), Ideal.fptosi 32 (countPt d e (8 * ((n - 1) / 8) + s))) + Ideal.fptosi 32 (countPt d e n)
  rw [e1, e2, Finset.sum_range_succ, e3, add_assoc]

variable (m : (ℓ : Loc nD τ sig) → Buf (Elt Ideal) ℓ)

/-! ## One point's two steps -/

/-- The loss step over any five input blocks: what the accumulator held plus the tile's loss. -/
theorem loss_step_blocks (x0 : Vec Ideal S1024x1 .f32) (x1 : Vec Ideal S1x1024 .f32) (x2 : Vec Ideal S1024x1 .f32)
    (x3 : Vec Ideal S1x1024 .f32) (x4 : Vec Ideal S1024x1 .f32) (prev : Vec Ideal S1x1 .f32) :
    k0_pay1 (F := Ideal) (k0_pay10 x0 x1 x2 x3 x4) prev
      = fun _ => prev (ix2 0 0) + tileLoss (colOf x0) (colOf x2) (colOf x4) (rowOf x1) (rowOf x3) := by
  rw [BodyValues.pay1_eq]
  funext _
  refine congrArg (prev (ix2 0 0) + ·) ?_
  unfold tileLoss
  exact Finset.sum_congr rfl fun r _ => BodyValues.pay10_apply x0 x1 x2 x3 x4 r

/-- The count step over any three input blocks: what the accumulator held plus the tile's float count as a word. -/
theorem count_step_blocks (x2 : Vec Ideal S1024x1 .f32) (x3 : Vec Ideal S1x1024 .f32) (x4 : Vec Ideal S1024x1 .f32)
    (prev : Vec Ideal S1x1 .i32) :
    k0_pay2 (F := Ideal) (k0_pay8 x4) (k0_pay11 x2 x3) prev
      = fun _ => prev (ix2 0 0) + Ideal.fptosi 32 (tileCount (colOf x2) (colOf x4) (rowOf x3)) := by
  rw [BodyValues.pay2_eq]
  funext _
  refine congrArg (fun s => prev (ix2 0 0) + Ideal.fptosi 32 s) ?_
  unfold tileCount
  exact Finset.sum_congr rfl fun r _ => by rw [BodyValues.pay11_apply, BodyValues.pay8_apply]

/-- Equal rows and columns give equal tile losses and counts. -/
theorem tileLoss_congr {a a' b b' g g' u u' v v' : Fin 1024 → EReal} (ha : a = a') (hb : b = b') (hg : g = g')
    (hu : u = u') (hv : v = v') : tileLoss a b g u v = tileLoss a' b' g' u' v' := by
  subst ha hb hg hu hv; rfl
theorem tileCount_congr {b b' g g' v v' : Fin 1024 → EReal} (hb : b = b') (hg : g = g') (hv : v = v') :
    tileCount b g v = tileCount b' g' v' := by
  subst hb hg hv; rfl

variable (m : (ℓ : Loc nD τ sig) → Buf (Elt Ideal) ℓ)

/-- The loss step at point `t`: the tile is the one visited at `t`. -/
theorem loss_step (c : Dev nD) (t : Fin cfg0.N) (prev : Vec Ideal S1x1 .f32) :
    k0_pay1 (F := Ideal) (k0_pay10 (predCol m c t) (predRow m c t) (durCol m c t) (durRow m c t) (evtCol m c t)) prev
      = fun _ => prev (ix2 0 0) + lossPt (pv m c) (dv m c) (ev m c) t.val :=
  (loss_step_blocks (predCol m c t) (predRow m c t) (durCol m c t) (durRow m c t) (evtCol m c t) prev).trans
    (funext fun _ => congrArg (prev (ix2 0 0) + ·)
      (tileLoss_congr (predCol_eq m c t) (durCol_eq m c t) (evtCol_eq m c t) (predRow_eq m c t) (durRow_eq m c t)))

/-- The count step at point `t`. -/
theorem count_step (c : Dev nD) (t : Fin cfg0.N) (prev : Vec Ideal S1x1 .i32) :
    k0_pay2 (F := Ideal) (k0_pay8 (evtCol m c t)) (k0_pay11 (durCol m c t) (durRow m c t)) prev
      = fun _ => prev (ix2 0 0) + Ideal.fptosi 32 (countPt (dv m c) (ev m c) t.val) :=
  (count_step_blocks (durCol m c t) (durRow m c t) (evtCol m c t) prev).trans
    (funext fun _ => congrArg (fun s => prev (ix2 0 0) + Ideal.fptosi 32 s)
      (tileCount_congr (durCol_eq m c t) (evtCol_eq m c t) (durRow_eq m c t)))

/-- The reset values at the accumulators' one entry. -/
theorem reset_loss : k0_pay6 (F := Ideal) (ix2 0 0) = zero32 := congrFun BodyValues.pay6_eq _
theorem reset_count : k0_pay7 (ix2 0 0) = 0#32 := congrFun BodyValues.pay7_eq _

/-! ## The accumulators after each point -/

/-- The loss accumulator after point `n`. -/
theorem scratch_loss (c : Dev nD) (n : ℕ) (hn : n < cfg0.N) :
    (outsAt0 m c n hn).2.2.1 = fun _ => lossAcc (pv m c) (dv m c) (ev m c) n := by
  induction n using Nat.strong_induction_on with
  | _ n ih =>
  have hN : n < 64 := lt_of_lt_of_eq hn (show cfg0.N = 64 from N_0)
  by_cases h0 : n % 8 = 0
  · have h1 : ¬n % 8 = 7 := by omega
    rw [show outsAt0 m c n hn = _ from outsAt0_A m c ⟨n, hn⟩ h0 h1]
    dsimp only
    refine (ScratchSteps.lossAcc_first (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) ((hcond0_0 ⟨n, hn⟩).mpr h0) (fun h => h1 ((hcond0_1 ⟨n, hn⟩).mp h)) (predCol m c ⟨n, hn⟩) (predRow m c ⟨n, hn⟩) (durCol m c ⟨n, hn⟩) (durRow m c ⟨n, hn⟩) (evtCol m c ⟨n, hn⟩)).trans ?_
    refine (loss_step m c ⟨n, hn⟩ (k0_pay6 (F := Ideal))).trans ?_
    rw [reset_loss, lossAcc_first _ _ _ n h0]
  · by_cases h1 : n % 8 = 7
    · rw [show outsAt0 m c n hn = _ from outsAt0_C m c ⟨n, hn⟩ h0 h1]
      dsimp only
      refine (ScratchSteps.lossAcc_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) (fun h => h0 ((hcond0_0 ⟨n, hn⟩).mp h)) ((hcond0_1 ⟨n, hn⟩).mpr h1) (predCol m c ⟨n, hn⟩) (predRow m c ⟨n, hn⟩) (durCol m c ⟨n, hn⟩) (durRow m c ⟨n, hn⟩) (evtCol m c ⟨n, hn⟩) _ _).trans ?_
      refine (loss_step m c ⟨n, hn⟩ _).trans ?_
      rw [lossAcc_step _ _ _ n h0]
      exact funext fun _ => congrArg (· + lossPt (pv m c) (dv m c) (ev m c) n) (congrFun (ih (n - 1) (by omega) _) _)
    · rw [show outsAt0 m c n hn = _ from outsAt0_B m c ⟨n, hn⟩ h0 h1]
      dsimp only
      refine (ScratchSteps.lossAcc_middle (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) (fun h => h0 ((hcond0_0 ⟨n, hn⟩).mp h)) (fun h => h1 ((hcond0_1 ⟨n, hn⟩).mp h)) (predCol m c ⟨n, hn⟩) (predRow m c ⟨n, hn⟩) (durCol m c ⟨n, hn⟩) (durRow m c ⟨n, hn⟩) (evtCol m c ⟨n, hn⟩) _ _).trans ?_
      refine (loss_step m c ⟨n, hn⟩ _).trans ?_
      rw [lossAcc_step _ _ _ n h0]
      exact funext fun _ => congrArg (· + lossPt (pv m c) (dv m c) (ev m c) n) (congrFun (ih (n - 1) (by omega) _) _)

/-- The count accumulator after point `n`. -/
theorem scratch_count (c : Dev nD) (n : ℕ) (hn : n < cfg0.N) :
    (outsAt0 m c n hn).2.2.2 = fun _ => countAcc (dv m c) (ev m c) n := by
  induction n using Nat.strong_induction_on with
  | _ n ih =>
  have hN : n < 64 := lt_of_lt_of_eq hn (show cfg0.N = 64 from N_0)
  by_cases h0 : n % 8 = 0
  · have h1 : ¬n % 8 = 7 := by omega
    rw [show outsAt0 m c n hn = _ from outsAt0_A m c ⟨n, hn⟩ h0 h1]
    dsimp only
    refine (ScratchSteps.countAcc_first (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) ((hcond0_0 ⟨n, hn⟩).mpr h0) (fun h => h1 ((hcond0_1 ⟨n, hn⟩).mp h)) (predCol m c ⟨n, hn⟩) (predRow m c ⟨n, hn⟩) (durCol m c ⟨n, hn⟩) (durRow m c ⟨n, hn⟩) (evtCol m c ⟨n, hn⟩)).trans ?_
    refine (count_step m c ⟨n, hn⟩ k0_pay7).trans ?_
    rw [reset_count, countAcc_first _ _ n h0]
  · by_cases h1 : n % 8 = 7
    · rw [show outsAt0 m c n hn = _ from outsAt0_C m c ⟨n, hn⟩ h0 h1]
      dsimp only
      refine (ScratchSteps.countAcc_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) (fun h => h0 ((hcond0_0 ⟨n, hn⟩).mp h)) ((hcond0_1 ⟨n, hn⟩).mpr h1) (predCol m c ⟨n, hn⟩) (predRow m c ⟨n, hn⟩) (durCol m c ⟨n, hn⟩) (durRow m c ⟨n, hn⟩) (evtCol m c ⟨n, hn⟩) _ _).trans ?_
      refine (count_step m c ⟨n, hn⟩ _).trans ?_
      rw [countAcc_step _ _ n h0]
      exact funext fun _ => congrArg (· + Ideal.fptosi 32 (countPt (dv m c) (ev m c) n)) (congrFun (ih (n - 1) (by omega) _) _)
    · rw [show outsAt0 m c n hn = _ from outsAt0_B m c ⟨n, hn⟩ h0 h1]
      dsimp only
      refine (ScratchSteps.countAcc_middle (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) (fun h => h0 ((hcond0_0 ⟨n, hn⟩).mp h)) (fun h => h1 ((hcond0_1 ⟨n, hn⟩).mp h)) (predCol m c ⟨n, hn⟩) (predRow m c ⟨n, hn⟩) (durCol m c ⟨n, hn⟩) (durRow m c ⟨n, hn⟩) (evtCol m c ⟨n, hn⟩) _ _).trans ?_
      refine (count_step m c ⟨n, hn⟩ _).trans ?_
      rw [countAcc_step _ _ n h0]
      exact funext fun _ => congrArg (· + Ideal.fptosi 32 (countPt (dv m c) (ev m c) n)) (congrFun (ih (n - 1) (by omega) _) _)

/-! ## The two output arrays after the run -/

/-- The sheets at an index, with the row tile's total written as the accumulation after the row's last point. -/
theorem lossSheet_apply (p d e : Fin 8192 → EReal) (x : S64x128.Idx) :
    lossSheet p d e x = if (x 0).val % 8 = 0 ∧ (x 1).val = 0 then lossAcc p d e (8 * ((x 0).val / 8) + 7) else zero32 := rfl
theorem countSheet_apply (d e : Fin 8192 → EReal) (x : S64x128.Idx) :
    countSheet d e x = if (x 0).val % 8 = 0 ∧ (x 1).val = 0 then countAcc d e (8 * ((x 0).val / 8) + 7) else 0#32 := rfl

/-- The loss window's block at point `t` is block (t / 8, 0) of the 64 × 128 array: decided over the grid. -/
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- At a row's last tile the loss block is one-hot: the accumulated loss at entry (0, 0), zero elsewhere. -/
theorem block_loss (c : Dev nD) (t : Fin cfg0.N) (h0 : ¬t.val % 8 = 0) (h1 : t.val % 8 = 7) :
    (outsAt0 m c t.val t.isLt).1
      = fun x : S8x128.Idx => if (x 0).val = 0 ∧ (x 1).val = 0 then lossAcc (pv m c) (dv m c) (ev m c) t.val else zero32 := by
  have hstep : k0_pay1 (F := Ideal) (k0_pay10 (predCol m c t) (predRow m c t) (durCol m c t) (durRow m c t) (evtCol m c t)) (outsAt0 m c (t.val - 1) (Nat.lt_of_le_of_lt (Nat.sub_le _ _) t.isLt)).2.2.1 = fun _ => lossAcc (pv m c) (dv m c) (ev m c) t.val := by
    refine (loss_step m c t _).trans ?_
    rw [lossAcc_step _ _ _ t.val h0]
    exact funext fun _ => congrArg (· + lossPt (pv m c) (dv m c) (ev m c) t.val) (congrFun (scratch_loss m c (t.val - 1) _) _)
  rw [outsAt0_C m c t h0 h1]
  dsimp only
  refine (ScratchSteps.lossBlock_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (predCol m c t) (predRow m c t) (durCol m c t) (durRow m c t) (evtCol m c t) _ _).trans ?_
  funext x
  refine (BodyValues.pay4_apply _ x).trans ?_
  rw [congrFun hstep (ix2 0 0)]

/-- What a flushing point writes back is its block of the loss sheet. -/
theorem flushed_loss (c : Dev nD) (t : Fin cfg0.N) (hf : (cfg0.win 5).flush t = true) :
    (dats m 0 c).flushed 5 t = ((cfg0.win 5).blk t).view.read (Elt Ideal) (lossSheet (pv m c) (dv m c) (ev m c)) := by
  have h7 : t.val % 8 = 7 := (flush0_5 t).mp hf
  have h0 : ¬t.val % 8 = 0 := by omega
  obtain ⟨e0, e1⟩ := idx5 t
  show (cfg0.win 5).cut (grid0.coords t) ((dats m 0 c).after 5 t) = _
  rw [after0_5, block_loss m c t h0 h7]
  funext j
  have hj0 : (j 0).val < 8 := (j 0).isLt
  have hj1 : (j 1).val < 128 := (j 1).isLt
  show (if (j 0).val = 0 ∧ (j 1).val = 0 then lossAcc (pv m c) (dv m c) (ev m c) t.val else zero32)
    = (if (win0_5.index t (0 : Fin 2) * 8 + 1 * (j 0).val) % 8 = 0 ∧ (win0_5.index t (1 : Fin 2) * 128 + 1 * (j 1).val) = 0
        then lossAcc (pv m c) (dv m c) (ev m c) (8 * ((win0_5.index t (0 : Fin 2) * 8 + 1 * (j 0).val) / 8) + 7) else zero32)
  rw [e0, e1]
  by_cases hc : (j 0).val = 0 ∧ (j 1).val = 0
  · rw [if_pos hc, if_pos (by omega)]
    have e : 8 * ((t.val / 8 * 8 + 1 * (j 0).val) / 8) + 7 = t.val := by omega
    rw [e]
  · rw [if_neg hc, if_neg (by omega)]

/-- An index of the array is in point `t`'s loss block iff each coordinate is in the block's range on its axis. -/
theorem mem_blk5 (t : Fin cfg0.N) (i : S64x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v9_0).slice (win0_5.rect t)).set ↔ _
  rw [View.set_slice_whole, Rect.mem_set_unit]
  exact Iff.rfl

/-- The loss array after the run is the loss sheet: the rows' last tiles write back, and their blocks tile the array. -/
theorem final_loss (c : Dev nD) :
    ((dats m 0 c).arrAt 5 cfg0.N : S64x128.Idx → EReal) = lossSheet (pv m c) (dv m c) (ev m c) :=
  (dats m 0 c).arrAt_eq_of_cover 5 (lossSheet (pv m c) (dv m c) (ev m c)) (fun t hf => flushed_loss m c t hf) fun i => by
    have hi0 : (i 0).val < 64 := (i 0).isLt
    have hi1 : (i 1).val < 128 := (i 1).isLt
    have hlt : 8 * ((i 0).val / 8) + 7 < cfg0.N := by rw [show cfg0.N = 64 from N_0]; omega
    obtain ⟨e0, e1⟩ := idx5 ⟨8 * ((i 0).val / 8) + 7, hlt⟩
    refine ⟨⟨8 * ((i 0).val / 8) + 7, hlt⟩, (flush0_5 _).mpr (by show (8 * ((i 0).val / 8) + 7) % 8 = 7; omega), ?_⟩
    rw [mem_blk5]
    intro a
    match a with
    | ⟨0, _⟩ =>
      show win0_5.index ⟨8 * ((i 0).val / 8) + 7, hlt⟩ (0 : Fin 2) * 8 ≤ (i 0).val ∧ (i 0).val < win0_5.index ⟨8 * ((i 0).val / 8) + 7, hlt⟩ (0 : Fin 2) * 8 + 8
      rw [e0]; dsimp only; omega
    | ⟨1, _⟩ =>
      show win0_5.index ⟨8 * ((i 0).val / 8) + 7, hlt⟩ (1 : Fin 2) * 128 ≤ (i 1).val ∧ (i 1).val < win0_5.index ⟨8 * ((i 0).val / 8) + 7, hlt⟩ (1 : Fin 2) * 128 + 128
      rw [e1]; omega

/-- The count window's block at point `t` is block (t / 8, 0) of the 64 × 128 array: decided over the grid. -/
theorem idx6 : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-- At a row's last tile the count block is one-hot: the accumulated count at entry (0, 0), zero elsewhere. -/
theorem block_count (c : Dev nD) (t : Fin cfg0.N) (h0 : ¬t.val % 8 = 0) (h1 : t.val % 8 = 7) :
    (outsAt0 m c t.val t.isLt).2.1
      = fun x : S8x128.Idx => if (x 0).val = 0 ∧ (x 1).val = 0 then countAcc (dv m c) (ev m c) t.val else 0#32 := by
  have hstep : k0_pay2 (F := Ideal) (k0_pay8 (evtCol m c t)) (k0_pay11 (durCol m c t) (durRow m c t)) (outsAt0 m c (t.val - 1) (Nat.lt_of_le_of_lt (Nat.sub_le _ _) t.isLt)).2.2.2 = fun _ => countAcc (dv m c) (ev m c) t.val := by
    refine (count_step m c t _).trans ?_
    rw [countAcc_step _ _ t.val h0]
    exact funext fun _ => congrArg (· + Ideal.fptosi 32 (countPt (dv m c) (ev m c) t.val)) (congrFun (scratch_count m c (t.val - 1) _) _)
  rw [outsAt0_C m c t h0 h1]
  dsimp only
  refine (ScratchSteps.countBlock_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (predCol m c t) (predRow m c t) (durCol m c t) (durRow m c t) (evtCol m c t) _ _).trans ?_
  funext x
  refine (BodyValues.pay5_apply _ x).trans ?_
  rw [congrFun hstep (ix2 0 0)]

/-- What a flushing point writes back is its block of the count sheet. -/
theorem flushed_count (c : Dev nD) (t : Fin cfg0.N) (hf : (cfg0.win 6).flush t = true) :
    (dats m 0 c).flushed 6 t = ((cfg0.win 6).blk t).view.read (Elt Ideal) (countSheet (dv m c) (ev m c)) := by
  have h7 : t.val % 8 = 7 := (flush0_6 t).mp hf
  have h0 : ¬t.val % 8 = 0 := by omega
  obtain ⟨e0, e1⟩ := idx6 t
  show (cfg0.win 6).cut (grid0.coords t) ((dats m 0 c).after 6 t) = _
  rw [after0_6, block_count m c t h0 h7]
  funext j
  have hj0 : (j 0).val < 8 := (j 0).isLt
  have hj1 : (j 1).val < 128 := (j 1).isLt
  show (if (j 0).val = 0 ∧ (j 1).val = 0 then countAcc (dv m c) (ev m c) t.val else 0#32)
    = (if (win0_6.index t (0 : Fin 2) * 8 + 1 * (j 0).val) % 8 = 0 ∧ (win0_6.index t (1 : Fin 2) * 128 + 1 * (j 1).val) = 0
        then countAcc (dv m c) (ev m c) (8 * ((win0_6.index t (0 : Fin 2) * 8 + 1 * (j 0).val) / 8) + 7) else 0#32)
  rw [e0, e1]
  by_cases hc : (j 0).val = 0 ∧ (j 1).val = 0
  · rw [if_pos hc, if_pos (by omega)]
    have e : 8 * ((t.val / 8 * 8 + 1 * (j 0).val) / 8) + 7 = t.val := by omega
    rw [e]
  · rw [if_neg hc, if_neg (by omega)]

/-- An index of the array is in point `t`'s count block iff each coordinate is in the block's range on its axis. -/
theorem mem_blk6 (t : Fin cfg0.N) (i : S64x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v9_1).slice (win0_6.rect t)).set ↔ _
  rw [View.set_slice_whole, Rect.mem_set_unit]
  exact Iff.rfl

/-- The count array after the run is the count sheet: the rows' last tiles write back, and their blocks tile the array. -/
theorem final_count (c : Dev nD) :
    ((dats m 0 c).arrAt 6 cfg0.N : S64x128.Idx → BitVec 32) = countSheet (dv m c) (ev m c) :=
  (dats m 0 c).arrAt_eq_of_cover 6 (countSheet (dv m c) (ev m c)) (fun t hf => flushed_count m c t hf) fun i => by
    have hi0 : (i 0).val < 64 := (i 0).isLt
    have hi1 : (i 1).val < 128 := (i 1).isLt
    have hlt : 8 * ((i 0).val / 8) + 7 < cfg0.N := by rw [show cfg0.N = 64 from N_0]; omega
    obtain ⟨e0, e1⟩ := idx6 ⟨8 * ((i 0).val / 8) + 7, hlt⟩
    refine ⟨⟨8 * ((i 0).val / 8) + 7, hlt⟩, (flush0_6 _).mpr (by show (8 * ((i 0).val / 8) + 7) % 8 = 7; omega), ?_⟩
    rw [mem_blk6]
    intro a
    match a with
    | ⟨0, _⟩ =>
      show win0_6.index ⟨8 * ((i 0).val / 8) + 7, hlt⟩ (0 : Fin 2) * 8 ≤ (i 0).val ∧ (i 0).val < win0_6.index ⟨8 * ((i 0).val / 8) + 7, hlt⟩ (0 : Fin 2) * 8 + 8
      rw [e0]; dsimp only; omega
    | ⟨1, _⟩ =>
      show win0_6.index ⟨8 * ((i 0).val / 8) + 7, hlt⟩ (1 : Fin 2) * 128 ≤ (i 1).val ∧ (i 1).val < win0_6.index ⟨8 * ((i 0).val / 8) + 7, hlt⟩ (1 : Fin 2) * 128 + 128
      rw [e1]; omega

end Cert.Accumulated

end
-- ==== Proof.KernelTotal.lean ====
/-
  The tiled program's run with its result named: after the region the host sums the two sheets (the loss from zero,
  the count words by addition from zero) and ends with the mean: `meanLoss (tiledLoss …) (tiledCount …)`.
-/
import proofs.«420691_j89962384982542_3_alg».proof.Proof.Gen.KernelIdeal.Frame
import proofs.«420691_j89962384982542_3_alg».proof.Proof.PairTerms
import proofs.«420691_j89962384982542_3_alg».proof.Proof.InputTiles
import proofs.«420691_j89962384982542_3_alg».proof.Proof.Accumulated
import Idealize.ShloMosaic.Lib.Pipeline.Value
import Idealize.ShloMosaic.Lib.StableHlo.Run
import Idealize.ShloMosaic.PureOps.Ideal.Laws
import Idealize.ShloMosaic.PureOps.Reduce

noncomputable section

namespace Cert.KernelTotal

open Idealize.ShloMosaic Idealize.ShloMosaic.TcCoe Idealize.ShloMosaic.ValueIdx
open Idealize.SL Idealize.SL.Sem
open Cert.KernelIdeal Cert.KernelIdeal.Gen Cert.PairTerms Cert.InputTiles

open scoped BigOperators

/-- The float sum of a 64 × 128 array into rank 0, from the zero word: zero plus the total. -/
private theorem sum_loss (x : S64x128.Idx → EReal) (j : S_.Idx) :
    Host.reduceAdd (F := Ideal) (φ := .f32) x (constant (F := Ideal) S_ .f32 0x00000000#32) reducesTo_S64x128_S_d0_1 h_S_ j
      = zero32 + ∑ i, x i :=
  Ideal.hostReduceAdd_total reducesTo_S64x128_S_d0_1 (fun b => b.elim0) x _ j

/-- The word sum of a 64 × 128 array into rank 0, from the zero word: the fold of word addition over every index. -/
private theorem sum_count (x : S64x128.Idx → BitVec 32) (j : S_.Idx) :
    Host.reduce IntOp.addi x (constantI S_ 32 0#32) reducesTo_S64x128_S_d0_1 h_S_ j = Finset.univ.fold IntOp.addi 0#32 x := by
  rw [Host.reduce_eq_fold, Finset.filter_true_of_mem fun i _ => funext fun b => b.elim0]
  rfl

/-- The host's ending over the two sums is the mean of the totals. -/
private theorem ending (L : S64x128.Idx → EReal) (C : S64x128.Idx → BitVec 32) :
    select (cmpi .sgt (Host.reduce IntOp.addi C (constantI S_ 32 0#32) reducesTo_S64x128_S_d0_1 h_S_) (constantI S_ 32 0#32))
      (Host.divf (F := Ideal)
        (mulf (F := Ideal) (constant (F := Ideal) S_ .f32 0x3F800000#32)
          (Host.reduceAdd (F := Ideal) (φ := .f32) L (constant (F := Ideal) S_ .f32 0x00000000#32) reducesTo_S64x128_S_d0_1 h_S_))
        (sitofp (F := Ideal) .f32 (Host.reduce IntOp.addi C (constantI S_ 32 0#32) reducesTo_S64x128_S_d0_1 h_S_)))
      (constant (F := Ideal) S_ .f32 0x00000000#32)
    = (fun _ => meanLoss (zero32 + ∑ x, L x) (Finset.univ.fold IntOp.addi 0#32 C) : S_.Idx → EReal) := by
  funext j
  have hA := sum_loss L j
  have hB := sum_count C j
  unfold meanLoss
  rw [← hA, ← hB]
  rfl

/-- The lines after the region, from any contents whose two output arrays are `L` and `C`, leave the result at the mean
    of the arrays' totals. -/
private theorem tail_eq (W : Valuation τ sig (Elt Ideal)) (L : S64x128.Idx → EReal) (C : S64x128.Idx → BitVec 32)
    (hL : W (Proc.devRef .tc main_v9_0) = L) (hC : W (Proc.devRef .tc main_v9_1) = C) :
    StableHlo.after [hostOps1 (F := Ideal), hostOps1_1].flatten W (Proc.devRef .tc main_v16)
      = (fun _ => meanLoss (zero32 + ∑ x : S64x128.Idx, L x) (Finset.univ.fold IntOp.addi 0#32 C) : S_.Idx → EReal) := by
  subst hL hC
  simp only [List.flatten_cons, List.flatten_nil, List.append_nil, hostOps1, hostOps1_1, List.cons_append, List.nil_append]
  open StableHlo in after_results
  simp only [StableHlo.TRef.ofBuf, StableHlo.TRef.toBuf, cast_eq]
  exact ending _ _

/-- Every weakly fair execution of the tiled program ends with its result at the mean of the tiled totals and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v16)
          = (fun _ => meanLoss (tiledLoss (pv m c) (dv m c) (ev m c)) (tiledCount (dv m c) (ev m c)) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · refine ((h c).2 main_v16 (Pipeline.mem_restRefs_of main_v16 (by decide) (by decide))).trans ?_
    unfold Pipeline.afterTail₀
    exact tail_eq _ _ _
      ((Pipeline.withArrays_arr spec0 launch0.win.arr_inj c _ _ 5).trans (Accumulated.final_loss m c))
      ((Pipeline.withArrays_arr spec0 launch0.win.arr_inj c _ _ 6).trans (Accumulated.final_count m c))
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelTotal

end
-- ==== Proof.ReferenceTotal.lean ====
/-
  The plain program's run with its result named.

  The program is a list of 43 host operations; every weakly fair execution ends with each buffer at the operations'
  fold over the launch contents. The fold is read in four stretches, each a short list whose results are functions of
  the few buffers that are live across the cut: the activity mask from the targets; the hinge from the predictions; the
  pair count and the masked hinges from those two; the two totals and the mean from those. Read index by index, the
  last is `meanLoss (plainLoss …) (plainCount …)` of the three vectors read off the two argument arrays.
-/
import proofs.«420691_j89962384982542_3_alg».proof.Defs
import proofs.«420691_j89962384982542_3_alg».proof.Proof.Gen.ReferenceIdeal
import proofs.«420691_j89962384982542_3_alg».proof.Proof.ReferenceRun
import proofs.«420691_j89962384982542_3_alg».proof.Proof.PairTerms
import Idealize.ShloMosaic.Lib.ValueIdx
import Idealize.ShloMosaic.Lib.Pipeline.Value
import Idealize.ShloMosaic.Lib.Pipeline.Frame
import Idealize.ShloMosaic.Lib.StableHlo.Run
import Idealize.ShloMosaic.PureOps.Ideal.Laws
import Idealize.ShloMosaic.PureOps.Reduce

noncomputable section

namespace Cert.ReferenceTotal

open Idealize.ShloMosaic Idealize.ShloMosaic.TcCoe Idealize.ShloMosaic.ValueIdx Idealize.ShloMosaic.StableHlo
open Idealize.SL Idealize.SL.Sem
open Cert.ReferenceIdeal Cert.ReferenceIdeal.Gen Cert.ReferenceIdeal.Value Cert.PairTerms

set_option maxRecDepth 8192 in
/-- Every weakly fair execution of the plain program ends with its result buffer at the fold of its operations over
    the launch contents, and the arguments unchanged. -/
theorem run_fold (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = after (ops (F := Ideal)) (launchContents m c) (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v31,
      (h c main_arg0).trans (by after_results_simp <;> rfl),
      (h c main_arg1).trans (by after_results_simp <;> rfl)⟩)
    (run_seq scopedRefs_eq scopedSems_eq defs main (fun _ => ops) main_eq (fun _ => ops_sub) m ρ)

/-! ## The program cut in four -/

section Cut
variable {F : FTy → Type} [FloatOps F]

/-- Operations 1-15: the activity mask from the targets. -/
def opsA : List (HloOp τ sig (Elt F)) :=
  [ unary main_arg1 main_v0 ((extractStridedSlice S8192x1 ![0, 0] · slices_S8192x2_S8192x1_0_0) : (⟨S8192x2, .f32⟩ : BufTy).Contents (Elt F) → (⟨S8192x1, .f32⟩ : BufTy).Contents (Elt F)),
    reshape main_v0 main_v1 rfl shapeCasts_S8192x1_S8192,
    unary main_arg1 main_v2 ((extractStridedSlice S8192x1 ![0, 1] · slices_S8192x2_S8192x1_0_1) : (⟨S8192x2, .f32⟩ : BufTy).Contents (Elt F) → (⟨S8192x1, .f32⟩ : BufTy).Contents (Elt F)),
    reshape main_v2 main_v3 rfl shapeCasts_S8192x1_S8192,
    unary main_v1 main_v4 (broadcastInDim S8192x1 ![0] bcast_S8192_S8192x1_0 : (⟨S8192, .f32⟩ : BufTy).Contents (Elt F) → (⟨S8192x1, .f32⟩ : BufTy).Contents (Elt F)),
    unary main_v1 main_v5 (broadcastInDim S1x8192 ![1] bcast_S8192_S1x8192_1 : (⟨S8192, .f32⟩ : BufTy).Contents (Elt F) → (⟨S1x8192, .f32⟩ : BufTy).Contents (Elt F)),
    unary main_v4 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (cmpf .olt : (⟨S8192x8192, .f32⟩ : BufTy).Contents (Elt F) → (⟨S8192x8192, .f32⟩ : BufTy).Contents (Elt F) → (⟨S8192x8192, .i1⟩ : BufTy).Contents (Elt F)),
    unary main_v3 main_v9 (broadcastInDim S8192x1 ![0] bcast_S8192_S8192x1_0 : (⟨S8192, .f32⟩ : BufTy).Contents (Elt F) → (⟨S8192x1, .f32⟩ : BufTy).Contents (Elt F)),
    nullary main_cst (constant S_ .f32 0x3F800000#32),
    unary main_cst main_v10 (broadcastInDim S8192x1 ![] bcast_S_S8192x1 : (⟨S_, .f32⟩ : BufTy).Contents (Elt F) → (⟨S8192x1, .f32⟩ : BufTy).Contents (Elt F)),
    binary main_v9 main_v10 main_v11 (cmpf .oeq : (⟨S8192x1, .f32⟩ : BufTy).Contents (Elt F) → (⟨S8192x1, .f32⟩ : BufTy).Contents (Elt F) → (⟨S8192x1, .i1⟩ : BufTy).Contents (Elt F)),
    unary main_v11 main_v12 (broadcastInDim S8192x8192 ![0, 1] bcast_S8192x1_S8192x8192_0_1 : (⟨S8192x1, .i1⟩ : BufTy).Contents (Elt F) → (⟨S8192x8192, .i1⟩ : BufTy).Contents (Elt F)),
    binary main_v8 main_v12 main_v13 (andi : (⟨S8192x8192, .i1⟩ : BufTy).Contents (Elt F) → (⟨S8192x8192, .i1⟩ : BufTy).Contents (Elt F) → (⟨S8192x8192, .i1⟩ : BufTy).Contents (Elt F)) ]

/-- Operations 16-26: the hinge from the predictions. -/
def opsB : List (HloOp τ sig (Elt F)) :=
  [ unary main_arg0 main_v14 (broadcastInDim S8192x1 ![0] bcast_S8192_S8192x1_0 : (⟨S8192, .f32⟩ : BufTy).Contents (Elt F) → (⟨S8192x1, .f32⟩ : BufTy).Contents (Elt F)),
    unary main_arg0 main_v15 (broadcastInDim S1x8192 ![1] bcast_S8192_S1x8192_1 : (⟨S8192, .f32⟩ : BufTy).Contents (Elt F) → (⟨S1x8192, .f32⟩ : BufTy).Contents (Elt F)),
    unary main_v14 main_v16 (broadcastInDim S8192x8192 ![0, 1] bcast_S8192x1_S8192x8192_0_1 : (⟨S8192x1, .f32⟩ : BufTy).Contents (Elt F) → (⟨S8192x8192, .f32⟩ : BufTy).Contents (Elt F)),
    unary main_v15 main_v17 (broadcastInDim S8192x8192 ![0, 1] bcast_S1x8192_S8192x8192_0_1 : (⟨S1x8192, .f32⟩ : BufTy).Contents (Elt F) → (⟨S8192x8192, .f32⟩ : BufTy).Contents (Elt F)),
    binary main_v16 main_v17 main_v18 (subf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x3F800000#32),
    unary main_cst_0 main_v19 (broadcastInDim S8192x8192 ![] bcast_S_S8192x8192 : (⟨S_, .f32⟩ : BufTy).Contents (Elt F) → (⟨S8192x8192, .f32⟩ : BufTy).Contents (Elt F)),
    binary main_v19 main_v18 main_v20 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x00000000#32),
    unary main_cst_1 main_v21 (broadcastInDim S8192x8192 ![] bcast_S_S8192x8192 : (⟨S_, .f32⟩ : BufTy).Contents (Elt F) → (⟨S8192x8192, .f32⟩ : BufTy).Contents (Elt F)),
    binary main_v20 main_v21 main_v22 (maximumf : (⟨S8192x8192, .f32⟩ : BufTy).Contents (Elt F) → (⟨S8192x8192, .f32⟩ : BufTy).Contents (Elt F) → (⟨S8192x8192, .f32⟩ : BufTy).Contents (Elt F)) ]

/-- Operations 27-33: the pair count and the masked hinges. -/
def opsC : List (HloOp τ sig (Elt F)) :=
  [ unary main_v13 main_v23 ((extui 32 · natLt_1_32) : (⟨S8192x8192, .i1⟩ : BufTy).Contents (Elt F) → (⟨S8192x8192, .i32⟩ : BufTy).Contents (Elt F)),
    nullary main_c (constantI S_ 32 0#32),
    binary main_v23 main_c main_v24 ((fun x v => Host.reduce IntOp.addi x v reducesTo_S8192x8192_S_d0_1 h_S_) : (⟨S8192x8192, .i32⟩ : BufTy).Contents (Elt F) → (⟨S_, .i32⟩ : BufTy).Contents (Elt F) → (⟨S_, .i32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v13) (TRef.of (T := ⟨S8192x8192, .f32⟩) main_v22) (TRef.of (T := ⟨S8192x8192, .f32⟩) main_call0_v1) (TRef.of (T := ⟨S8192x8192, .f32⟩) main_v25) select ]

/-- Operations 34-43: the two totals and the mean. -/
def opsD : List (HloOp τ sig (Elt F)) :=
  [ nullary main_cst_3 (constant S_ .f32 0x00000000#32),
    binary main_v25 main_cst_3 main_v26 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_4 (constant S_ .f32 0x3F800000#32),
    binary main_cst_4 main_v26 main_v27 (mulf : (⟨S_, .f32⟩ : BufTy).Contents (Elt F) → (⟨S_, .f32⟩ : BufTy).Contents (Elt F) → (⟨S_, .f32⟩ : BufTy).Contents (Elt F)),
    nullary main_c_5 (constantI S_ 32 0#32),
    binary main_v24 main_c_5 main_v28 (cmpi .sgt : (⟨S_, .i32⟩ : BufTy).Contents (Elt F) → (⟨S_, .i32⟩ : BufTy).Contents (Elt F) → (⟨S_, .i1⟩ : BufTy).Contents (Elt F)),
    unary main_v24 main_v29 (sitofp .f32 : (⟨S_, .i32⟩ : BufTy).Contents (Elt F) → (⟨S_, .f32⟩ : BufTy).Contents (Elt F)),
    binary main_v27 main_v29 main_v30 (Host.divf : (⟨S_, .f32⟩ : BufTy).Contents (Elt F) → (⟨S_, .f32⟩ : BufTy).Contents (Elt F) → (⟨S_, .f32⟩ : BufTy).Contents (Elt F)),
    nullary main_cst_6 (constant S_ .f32 0x00000000#32),
    TRef.ternary (TRef.of (T := ⟨S_, .i1⟩) main_v28) (TRef.of (T := ⟨S_, .f32⟩) main_v30) (TRef.of (T := ⟨S_, .f32⟩) main_cst_6) (TRef.of (T := ⟨S_, .f32⟩) main_v31) select ]

set_option maxRecDepth 8192 in
/-- The program is the four stretches in order. -/
theorem ops_cut : (ops : List (HloOp τ sig (Elt F))) = opsA ++ opsB ++ opsC ++ opsD := rfl

end Cut

/-! ## The layout operations of the program, read at an index -/

section Layout
variable {α : Type}

/-- Column 0 of an 8192 × 2 array as a vector. -/
private theorem col0_apply (T : S8192x2.Idx → α) (k : S8192.Idx) :
    shapeCast S8192 (extractStridedSlice S8192x1 ![0, 0] T slices_S8192x2_S8192x1_0_0) shapeCasts_S8192x1_S8192 k
      = T (ix2 (k 0) 0) := by
  rw [shapeCast_apply _ shapeCasts_S8192x1_S8192 k (ix2 (k 0) 0)
    (by rw [Shape.rowMajor_val_two, Shape.rowMajor_val_one]; show (k 0).val * 1 + 0 = (k 0).val; omega)]
  exact extractStridedSlice_apply ![0, 0] T slices_S8192x2_S8192x1_0_0 _ _ (fun a => match a with
    | ⟨0, _⟩ => by show (k 0).val = 0 + (k 0).val; omega
    | ⟨1, _⟩ => by show 0 = 0 + 0; rfl)

/-- Column 1 of an 8192 × 2 array as a vector. -/
private theorem col1_apply (T : S8192x2.Idx → α) (k : S8192.Idx) :
    shapeCast S8192 (extractStridedSlice S8192x1 ![0, 1] T slices_S8192x2_S8192x1_0_1) shapeCasts_S8192x1_S8192 k
      = T (ix2 (k 0) 1) := by
  rw [shapeCast_apply _ shapeCasts_S8192x1_S8192 k (ix2 (k 0) 0)
    (by rw [Shape.rowMajor_val_two, Shape.rowMajor_val_one]; show (k 0).val * 1 + 0 = (k 0).val; omega)]
  exact extractStridedSlice_apply ![0, 1] T slices_S8192x2_S8192x1_0_1 _ _ (fun a => match a with
    | ⟨0, _⟩ => by show (k 0).val = 0 + (k 0).val; omega
    | ⟨1, _⟩ => by show 1 = 1 + 0; rfl)

/-- A vector stood up as a column. -/
private theorem toCol_apply (v : S8192.Idx → α) (k : S8192x1.Idx) :
    broadcastInDim S8192x1 ![0] bcast_S8192_S8192x1_0 v k = v (ix1 (k 0)) :=
  broadcastInDim_apply _ bcast_S8192_S8192x1_0 v k (ix1 (k 0)) (fun a => match a with
    | ⟨0, _⟩ => by show (k 0).val = if (8192 : Nat) = 1 then 0 else (k 0).val; rw [if_neg (by decide)])

/-- A vector laid down as a row. -/
private theorem toRow_apply (v : S8192.Idx → α) (k : S1x8192.Idx) :
    broadcastInDim S1x8192 ![1] bcast_S8192_S1x8192_1 v k = v (ix1 (k 1)) :=
  broadcastInDim_apply _ bcast_S8192_S1x8192_1 v k (ix1 (k 1)) (fun a => match a with
    | ⟨0, _⟩ => by show (k 1).val = if (8192 : Nat) = 1 then 0 else (k 1).val; rw [if_neg (by decide)])

/-- A column repeated across the square. -/
private theorem fromCol_apply (u : S8192x1.Idx → α) (i : S8192x8192.Idx) :
    broadcastInDim S8192x8192 ![0, 1] bcast_S8192x1_S8192x8192_0_1 u i = u (ix2 (i 0) 0) :=
  broadcastInDim_apply _ bcast_S8192x1_S8192x8192_0_1 u i (ix2 (i 0) 0) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

/-- A row repeated down the square. -/
private theorem fromRow_apply (u : S1x8192.Idx → α) (i : S8192x8192.Idx) :
    broadcastInDim S8192x8192 ![0, 1] bcast_S1x8192_S8192x8192_0_1 u i = u (ix2 0 (i 1)) :=
  broadcastInDim_apply _ bcast_S1x8192_S8192x8192_0_1 u i (ix2 0 (i 1)) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

/-- A scalar spread over the square. -/
private theorem splatSq_apply (c : S_.Idx → α) (i : S8192x8192.Idx) :
    broadcastInDim S8192x8192 ![] bcast_S_S8192x8192 c i = c ix0 :=
  broadcastInDim_apply _ bcast_S_S8192x8192 c i ix0 (fun a => a.elim0)

/-- A scalar spread over a column. -/
private theorem splatCol_apply (c : S_.Idx → α) (k : S8192x1.Idx) :
    broadcastInDim S8192x1 ![] bcast_S_S8192x1 c k = c ix0 :=
  broadcastInDim_apply _ bcast_S_S8192x1 c k ix0 (fun a => a.elim0)

end Layout

/-! ## The four stretches, over an arbitrary valuation -/

local notation "𝕍" => Valuation τ sig (Elt Ideal)

/-- The activity mask after the first stretch, as a term over the targets. -/
private theorem afterA_v13 (W : 𝕍) :
    after (opsA (F := Ideal)) W (Proc.devRef .tc main_v13)
      = andi
          (cmpf (F := Ideal) (φ := .f32) .olt
            (broadcastInDim S8192x8192 ![0, 1] bcast_S8192x1_S8192x8192_0_1 (broadcastInDim S8192x1 ![0] bcast_S8192_S8192x1_0
              (shapeCast S8192 (extractStridedSlice S8192x1 ![0, 0] (W (Proc.devRef .tc main_arg1) : (⟨S8192x2, .f32⟩ : BufTy).Contents (Elt Ideal)) slices_S8192x2_S8192x1_0_0) shapeCasts_S8192x1_S8192)))
            (broadcastInDim S8192x8192 ![0, 1] bcast_S1x8192_S8192x8192_0_1 (broadcastInDim S1x8192 ![1] bcast_S8192_S1x8192_1
              (shapeCast S8192 (extractStridedSlice S8192x1 ![0, 0] (W (Proc.devRef .tc main_arg1) : (⟨S8192x2, .f32⟩ : BufTy).Contents (Elt Ideal)) slices_S8192x2_S8192x1_0_0) shapeCasts_S8192x1_S8192))))
          (broadcastInDim S8192x8192 ![0, 1] bcast_S8192x1_S8192x8192_0_1
            (cmpf (F := Ideal) (φ := .f32) .oeq
              (broadcastInDim S8192x1 ![0] bcast_S8192_S8192x1_0
                (shapeCast S8192 (extractStridedSlice S8192x1 ![0, 1] (W (Proc.devRef .tc main_arg1) : (⟨S8192x2, .f32⟩ : BufTy).Contents (Elt Ideal)) slices_S8192x2_S8192x1_0_1) shapeCasts_S8192x1_S8192))
              (broadcastInDim S8192x1 ![] bcast_S_S8192x1 (constant (F := Ideal) S_ .f32 0x3F800000#32)))) := by
  unfold opsA
  after_results <;> rfl

/-- The first stretch writes neither argument. -/
private theorem afterA_arg0 (W : 𝕍) : after (opsA (F := Ideal)) W (Proc.devRef .tc main_arg0) = W (Proc.devRef .tc main_arg0) := by
  unfold opsA
  after_results

private theorem afterA_arg1 (W : 𝕍) : after (opsA (F := Ideal)) W (Proc.devRef .tc main_arg1) = W (Proc.devRef .tc main_arg1) := by
  unfold opsA
  after_results

/-- The hinge after the second stretch, as a term over the predictions. -/
private theorem afterB_v22 (W : 𝕍) :
    after (opsB (F := Ideal)) W (Proc.devRef .tc main_v22)
      = maximumf (F := Ideal)
          (subf (F := Ideal) (broadcastInDim S8192x8192 ![] bcast_S_S8192x8192 (constant (F := Ideal) S_ .f32 0x3F800000#32))
            (subf (F := Ideal)
              (broadcastInDim S8192x8192 ![0, 1] bcast_S8192x1_S8192x8192_0_1 (broadcastInDim S8192x1 ![0] bcast_S8192_S8192x1_0 (W (Proc.devRef .tc main_arg0) : (⟨S8192, .f32⟩ : BufTy).Contents (Elt Ideal))))
              (broadcastInDim S8192x8192 ![0, 1] bcast_S1x8192_S8192x8192_0_1 (broadcastInDim S1x8192 ![1] bcast_S8192_S1x8192_1 (W (Proc.devRef .tc main_arg0) : (⟨S8192, .f32⟩ : BufTy).Contents (Elt Ideal))))))
          (broadcastInDim S8192x8192 ![] bcast_S_S8192x8192 (constant (F := Ideal) S_ .f32 0x00000000#32)) := by
  unfold opsB
  after_results <;> rfl

/-- The second stretch does not write the mask. -/
private theorem afterB_v13 (W : 𝕍) : after (opsB (F := Ideal)) W (Proc.devRef .tc main_v13) = W (Proc.devRef .tc main_v13) := by
  unfold opsB
  after_results

/-- The pair count after the third stretch. -/
private theorem afterC_v24 (W : 𝕍) :
    after (opsC (F := Ideal)) W (Proc.devRef .tc main_v24)
      = Host.reduce IntOp.addi (extui 32 (W (Proc.devRef .tc main_v13) : (⟨S8192x8192, .i1⟩ : BufTy).Contents (Elt Ideal)) natLt_1_32) (constantI S_ 32 0#32) reducesTo_S8192x8192_S_d0_1 h_S_ := by
  unfold opsC
  after_results <;> rfl

/-- The masked hinges after the third stretch. -/
private theorem afterC_v25 (W : 𝕍) :
    after (opsC (F := Ideal)) W (Proc.devRef .tc main_v25)
      = select (W (Proc.devRef .tc main_v13) : (⟨S8192x8192, .i1⟩ : BufTy).Contents (Elt Ideal)) (W (Proc.devRef .tc main_v22) : (⟨S8192x8192, .f32⟩ : BufTy).Contents (Elt Ideal))
          (broadcastInDim S8192x8192 ![] bcast_S_S8192x8192 (constant (F := Ideal) S_ .f32 0x00000000#32)) := by
  unfold opsC
  after_results <;> rfl

/-- The result after the last stretch, from the count and the masked hinges. -/
private theorem afterD_v31 (W : 𝕍) :
    after (opsD (F := Ideal)) W (Proc.devRef .tc main_v31)
      = select (cmpi .sgt (W (Proc.devRef .tc main_v24) : (⟨S_, .i32⟩ : BufTy).Contents (Elt Ideal)) (constantI S_ 32 0#32))
          (Host.divf (F := Ideal)
            (mulf (F := Ideal) (constant (F := Ideal) S_ .f32 0x3F800000#32)
              (Host.reduceAdd (F := Ideal) (W (Proc.devRef .tc main_v25) : (⟨S8192x8192, .f32⟩ : BufTy).Contents (Elt Ideal)) (constant (F := Ideal) S_ .f32 0x00000000#32) reducesTo_S8192x8192_S_d0_1 h_S_))
            (sitofp (F := Ideal) .f32 (W (Proc.devRef .tc main_v24) : (⟨S_, .i32⟩ : BufTy).Contents (Elt Ideal))))
          (constant (F := Ideal) S_ .f32 0x00000000#32) := by
  unfold opsD
  after_results <;> rfl

/-! ## The stretches read at an index -/

/-- The mask at a pair is the pair's activity bit. -/
private theorem afterA_v13_apply (W : 𝕍) (i : S8192x8192.Idx) :
    after (opsA (F := Ideal)) W (Proc.devRef .tc main_v13) i
      = active (dursOf (W (Proc.devRef .tc main_arg1))) (evtsOf (W (Proc.devRef .tc main_arg1))) (i 0) (i 1) := by
  rw [afterA_v13]
  show IntOp.andi (FloatOps.cmpf (F := Ideal) (φ := .f32) .olt _ _) _ = _
  rw [fromCol_apply, fromRow_apply, fromCol_apply, cmpf_apply]
  repeat rw [toCol_apply]
  rw [toRow_apply]
  repeat rw [col0_apply]
  rw [col1_apply, splatCol_apply]
  rfl

/-- The hinge at a pair. -/
private theorem afterB_v22_apply (W : 𝕍) (i : S8192x8192.Idx) :
    after (opsB (F := Ideal)) W (Proc.devRef .tc main_v22) i
      = max (one32 - (predsOf (W (Proc.devRef .tc main_arg0)) (i 0) - predsOf (W (Proc.devRef .tc main_arg0)) (i 1))) zero32 := by
  rw [afterB_v22]
  simp only [maximumf_apply, subf_apply]
  rw [splatSq_apply, fromCol_apply, fromRow_apply, toCol_apply, toRow_apply, splatSq_apply]
  rfl

/-- The result at its one index: the mean of the total of the masked hinges and the count. -/
private theorem afterD_v31_apply (W : 𝕍) (j : S_.Idx) :
    after (opsD (F := Ideal)) W (Proc.devRef .tc main_v31) j
      = meanLoss
          (Host.reduceAdd (F := Ideal) (W (Proc.devRef .tc main_v25) : (⟨S8192x8192, .f32⟩ : BufTy).Contents (Elt Ideal))
            (constant (F := Ideal) S_ .f32 0x00000000#32) reducesTo_S8192x8192_S_d0_1 h_S_ j)
          ((W (Proc.devRef .tc main_v24) : (⟨S_, .i32⟩ : BufTy).Contents (Elt Ideal)) j) := by
  rw [afterD_v31]
  rfl

/-! ## The whole fold -/

set_option maxRecDepth 8192 in
/-- The fold over the program is the four stretches' folds in turn. -/
private theorem after_ops (V : 𝕍) :
    after (ops (F := Ideal)) V = after (opsD (F := Ideal)) (after (opsC (F := Ideal)) (after (opsB (F := Ideal)) (after (opsA (F := Ideal)) V))) :=
  (congrArg (fun l => after l V) (ops_cut (F := Ideal))).trans (by rw [after_append, after_append, after_append])

/-- The fold at the result buffer is the mean of the plain totals of the three vectors. -/
theorem fold_eq (V : Valuation τ sig (Elt Ideal)) :
    after (ops (F := Ideal)) V (Proc.devRef .tc main_v31)
      = (fun _ => meanLoss (plainLoss (predsOf (V (Proc.devRef .tc main_arg0))) (dursOf (V (Proc.devRef .tc main_arg1))) (evtsOf (V (Proc.devRef .tc main_arg1))))
          (plainCount (dursOf (V (Proc.devRef .tc main_arg1))) (evtsOf (V (Proc.devRef .tc main_arg1)))) : S_.Idx → EReal) := by
  -- the mask and the hinge, as the third stretch finds them
  have hmask : ∀ i : S8192x8192.Idx, after (opsB (F := Ideal)) (after (opsA (F := Ideal)) V) (Proc.devRef .tc main_v13) i
      = active (dursOf (V (Proc.devRef .tc main_arg1))) (evtsOf (V (Proc.devRef .tc main_arg1))) (i 0) (i 1) := fun i => by
    rw [afterB_v13, afterA_v13_apply]
  have hhinge : ∀ i : S8192x8192.Idx, after (opsB (F := Ideal)) (after (opsA (F := Ideal)) V) (Proc.devRef .tc main_v22) i
      = max (one32 - (predsOf (V (Proc.devRef .tc main_arg0)) (i 0) - predsOf (V (Proc.devRef .tc main_arg0)) (i 1))) zero32 := fun i => by
    rw [afterB_v22_apply, afterA_arg0]
  -- the count
  have hcount : ∀ j : S_.Idx, after (opsC (F := Ideal)) (after (opsB (F := Ideal)) (after (opsA (F := Ideal)) V)) (Proc.devRef .tc main_v24) j
      = plainCount (dursOf (V (Proc.devRef .tc main_arg1))) (evtsOf (V (Proc.devRef .tc main_arg1))) := fun j => by
    rw [afterC_v24, Host.reduce_eq_fold (IntOp.addi (w := 32)), Finset.filter_true_of_mem (fun i _ => funext fun b => b.elim0)]
    unfold plainCount
    exact Finset.fold_congr (op := IntOp.addi (w := 32)) (fun i _ => by rw [extui_apply, hmask])
  -- the total loss
  have hloss : ∀ j : S_.Idx,
      Host.reduceAdd (F := Ideal) (after (opsC (F := Ideal)) (after (opsB (F := Ideal)) (after (opsA (F := Ideal)) V)) (Proc.devRef .tc main_v25) : (⟨S8192x8192, .f32⟩ : BufTy).Contents (Elt Ideal))
        (constant (F := Ideal) S_ .f32 0x00000000#32) reducesTo_S8192x8192_S_d0_1 h_S_ j
      = plainLoss (predsOf (V (Proc.devRef .tc main_arg0))) (dursOf (V (Proc.devRef .tc main_arg1))) (evtsOf (V (Proc.devRef .tc main_arg1))) := fun j => by
    show Ideal.hostReduceAdd reducesTo_S8192x8192_S_d0_1 _ zero32 j = _
    rw [Ideal.hostReduceAdd_total reducesTo_S8192x8192_S_d0_1 (fun b => b.elim0)]
    unfold plainLoss
    refine congrArg (zero32 + ·) (Finset.sum_congr rfl fun i _ => ?_)
    rw [afterC_v25, select_apply, hmask, hhinge, splatSq_apply]
    rfl
  rw [after_ops]
  funext j
  rw [afterD_v31_apply, hloss j, hcount j]

/-- Every weakly fair execution of the plain program ends with its result at that mean and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v31)
          = (fun _ => meanLoss (plainLoss (predsOf (m ((c.tc : Thread nD τ).loc main_arg0))) (dursOf (m ((c.tc : Thread nD τ).loc main_arg1))) (evtsOf (m ((c.tc : Thread nD τ).loc main_arg1))))
              (plainCount (dursOf (m ((c.tc : Thread nD τ).loc main_arg1))) (evtsOf (m ((c.tc : Thread nD τ).loc main_arg1)))) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (fold_eq _), (h c).2⟩) (run_fold m ρ)

end Cert.ReferenceTotal

end
-- ==== Proof.lean ====
/-
  The pairwise margin ranking loss: the tiled program against the plain one, over the extended reals.

  Both programs end in the same mean — `1 · loss / count` when the pair count is positive, zero otherwise — of two
  totals over the 8192 × 8192 pairs: the sum of the active pairs' hinges and their number as a 32-bit word. The tiled
  program visits the 8 × 8 tiles of 1024 × 1024 pairs row by row, accumulating each row of tiles in two carried cells
  and writing the row's totals into one-hot 8 × 128 blocks that the host then sums (KernelTotal); the plain program
  masks, sums and counts all pairs at once (ReferenceTotal). The two totals agree (PairLaws): for the loss because the
  predictions are finite under the precondition (FiniteInputs), so that `(1 - x) + y = 1 - (x - y)`, a factor in {0, 1}
  selects, and the tiles partition the pairs; for the count because each tile's float count is a natural number below
  2^31, which the conversion to a word keeps, and word addition of such numbers is the word of their sum.
  The three frames: the two kernels' are the generated frame certificates; the plain program's is its run with the
  result forgotten. The tiled program's idealization rewrote no operation, so nothing is to preserve.
-/
import proofs.«420691_j89962384982542_3_alg».proof.Defs
import proofs.«420691_j89962384982542_3_alg».proof.Proof.Gen.Kernel
import proofs.«420691_j89962384982542_3_alg».proof.Proof.Gen.Kernel.Skeleton
import proofs.«420691_j89962384982542_3_alg».proof.Proof.Gen.Kernel.Launch
import proofs.«420691_j89962384982542_3_alg».proof.Proof.Gen.Kernel.Points
import proofs.«420691_j89962384982542_3_alg».proof.Proof.Gen.Kernel.Frame
import proofs.«420691_j89962384982542_3_alg».proof.Proof.Gen.KernelIdeal
import proofs.«420691_j89962384982542_3_alg».proof.Proof.Gen.KernelIdeal.Skeleton
import proofs.«420691_j89962384982542_3_alg».proof.Proof.Gen.KernelIdeal.Launch
import proofs.«420691_j89962384982542_3_alg».proof.Proof.Gen.KernelIdeal.Points
import proofs.«420691_j89962384982542_3_alg».proof.Proof.Gen.KernelIdeal.Frame
import proofs.«420691_j89962384982542_3_alg».proof.Proof.Gen.ReferenceIdeal
import proofs.«420691_j89962384982542_3_alg».proof.Proof.Gen.Pre_finite_inputs
import proofs.«420691_j89962384982542_3_alg».proof.Proof.PairTerms
import proofs.«420691_j89962384982542_3_alg».proof.Proof.PairLaws
import proofs.«420691_j89962384982542_3_alg».proof.Proof.FiniteInputs
import proofs.«420691_j89962384982542_3_alg».proof.Proof.InputTiles
import proofs.«420691_j89962384982542_3_alg».proof.Proof.KernelTotal
import proofs.«420691_j89962384982542_3_alg».proof.Proof.ReferenceTotal
import Idealize.ShloMosaic.Adequacy
import Idealize.ShloMosaic.Init

noncomputable section

namespace Cert.Proof

open Idealize.ShloMosaic Idealize.SL.Sem Cert.PairTerms

/-- The tiled program and the plain one, run from memories that agree on the arguments, end with the same mean loss:
    the tiled totals are the plain totals of the same three vectors. -/
theorem algebraic : Cert.algebraic_KernelIdeal_ReferenceIdeal := by
  intro m ρ m' ρ' hpre hagree
  refine ⟨fun c => (fun _ => meanLoss
      (plainLoss (Cert.InputTiles.pv m c) (Cert.InputTiles.dv m c) (Cert.InputTiles.ev m c))
      (plainCount (Cert.InputTiles.dv m c) (Cert.InputTiles.ev m c)) : Cert.KernelIdeal.S_.Idx → EReal), ?_, ?_⟩
  · refine (θ_run Cert.KernelIdeal.defs _ _).mono (fun _ h c => ⟨(h c).1.trans ?_, (h c).2⟩) (Cert.KernelTotal.run m ρ)
    rw [Cert.PairLaws.tiledLoss_eq_plainLoss _ _ _ (fun i => Cert.FiniteInputs.preds_finite _ _ (hpre c) i),
      Cert.PairLaws.tiledCount_eq_plainCount]
  · refine (θ_run Cert.ReferenceIdeal.defs _ _).mono (fun _ h c => ⟨(h c).1.trans ?_, (h c).2⟩) (Cert.ReferenceTotal.run m' ρ')
    rw [(hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceTotal.run m ρ),
  trivial,
  algebraic⟩

end Cert.Proof

end
